-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S8x6x50000x1 : S_.BroadcastsInDim S8x6x50000x1 (![] : Fin 0 → Fin S8x6x50000x1.rank)
  reducesTo_S8x6x50000x1_S_d0_1_2_3 : S8x6x50000x1.ReducesTo [0, 1, 2, 3] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x16 .f32) (main_arg9 : FVec F S1 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S2x16 .f32) (main_arg6 : FVec F S16 .f32) (main_arg7 : FVec F S16 .f32) (main_arg8 : FVec F S1x16 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x16 .f32 := Host.absf main_arg5
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S8x6x50000x1 .f32) (main_arg1 : IVec S2x1600000 32) (main_arg2 : FVec F S2x16 .f32) (main_arg3 : FVec F S16 .f32) (main_arg4 : FVec F S16 .f32) (main_arg5 : FVec F S2x16 .f32) (main_arg6 : FVec F S16 .f32) (main_arg7 : FVec F S16 .f32) (main_arg8 : FVec F S1x16 .f32) (main_arg9 : FVec F S1 .f32) : IVec S_ 1 :=
  let main_v0 : FVec F S8x6x50000x1 .f32 := Host.absf main_arg0
  let main_cst : FVec F S_ .f32 := constant S_ .f32 0x7F800000#32
  let main_v1 : FVec F S8x6x50000x1 .f32 := broadcastInDim S8x6x50000x1 ![] bcast_S_S8x6x50000x1 main_cst
  let main_v2 : IVec S8x6x50000x1 1 := cmpf .olt main_v0 main_v1
  let main_c : IVec S_ 1 := constantI S_ 1 1#1
  let main_v3 : IVec S_ 1 := (fun x v => Host.reduce IntOp.andi x v reducesTo_S8x6x50000x1_S_d0_1_2_3 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_v13 main_v16
-- ==== Kernel.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S8x6x50000 : Shape := ⟨3, ![8, 6, 50000]⟩
abbrev S_ : Shape := ⟨0, ![]⟩
abbrev S50000 : Shape := ⟨1, ![50000]⟩
abbrev S1600000x1 : Shape := ⟨2, ![1600000, 1]⟩
abbrev S8x6x1600000 : Shape := ⟨3, ![8, 6, 1600000]⟩
abbrev S1x1x1600000 : Shape := ⟨3, ![1, 1, 1600000]⟩
abbrev S48x50000 : Shape := ⟨2, ![48, 50000]⟩
abbrev S48x50176 : Shape := ⟨2, ![48, 50176]⟩
abbrev S48x16 : Shape := ⟨2, ![48, 16]⟩
abbrev S48x512 : Shape := ⟨2, ![48, 512]⟩
abbrev S48x1x512 : Shape := ⟨3, ![48, 1, 512]⟩
abbrev S1x16x1 : Shape := ⟨3, ![1, 16, 1]⟩
abbrev S48x16x512 : Shape := ⟨3, ![48, 16, 512]⟩
abbrev S1x1x512 : Shape := ⟨3, ![1, 1, 512]⟩
abbrev S8x6x16 : Shape := ⟨3, ![8, 6, 16]⟩
abbrev S8x1x16 : Shape := ⟨3, ![8, 1, 16]⟩
abbrev S8x16 : Shape := ⟨2, ![8, 16]⟩
abbrev S16x1 : Shape := ⟨2, ![16, 1]⟩
abbrev S8x1 : Shape := ⟨2, ![8, 1]⟩
abbrev S1x1 : Shape := ⟨2, ![1, 1]⟩

abbrev nBuf : Space → Nat
  | .hbm => 108
  | .vmem => 12
  | .smem => 0
  | _ => 0

abbrev bufTy : (tb : Table) → Fin (tcTables nBuf tb) → BufTy
  | .hbm, ⟨0, _⟩ => ⟨S8x6x50000x1, .f32⟩
  | .hbm, ⟨1, _⟩ => ⟨S2x1600000, .i32⟩
  | .hbm, ⟨2, _⟩ => ⟨S2x16, .f32⟩
  | .hbm, ⟨3, _⟩ => ⟨S16, .f32⟩
  | .hbm, ⟨4, _⟩ => ⟨S16, .f32⟩
  | .hbm, ⟨5, _⟩ => ⟨S2x16, .f32⟩
  | .hbm, ⟨6, _⟩ => ⟨S16, .f32⟩
  | .hbm, ⟨7, _⟩ => ⟨S16, .f32⟩
  | .hbm, ⟨8, _⟩ => ⟨S1x16, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S8x6x50000, .f32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S_, .f32⟩
  | .hbm, ⟨26, _⟩ => ⟨S1600000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000, .f32⟩
  | .hbm, ⟨61, _⟩ => ⟨S1600000, .f32⟩
  | .hbm, ⟨62, _⟩ => ⟨S_, .f32⟩
  | .hbm, ⟨63, _⟩ => ⟨S8x6x50000, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S8x6x1600000, .f32⟩
  | .hbm, ⟨73, _⟩ => ⟨S1x1x1600000, .f32⟩
  | .hbm, ⟨74, _⟩ => ⟨S8x6x1600000, .f32⟩
  | .hbm, ⟨75, _⟩ => ⟨S8x6x1600000, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S8x6x50000, .f32⟩
  | .hbm, ⟨85, _⟩ => ⟨S48x50000, .f32⟩
  | .hbm, ⟨86, _⟩ => ⟨S48x50000, .f32⟩
  | .hbm, ⟨87, _⟩ => ⟨S_, .i32⟩
  | .hbm, ⟨88, _⟩ => ⟨S_, .f32⟩
  | .hbm, ⟨89, _⟩ => ⟨S48x50176, .f32⟩
  | .hbm, ⟨90, _⟩ => ⟨S_, .i32⟩
  | .hbm, ⟨91, _⟩ => ⟨S_, .f32⟩
  | .hbm, ⟨92, _⟩ => ⟨S48x50176, .f32⟩
  | .hbm, ⟨93, _⟩ => ⟨S48x16, .f32⟩
  | .hbm, ⟨94, _⟩ => ⟨S_, .f32⟩
  | .hbm, ⟨95, _⟩ => ⟨S48x16, .f32⟩
  | .hbm, ⟨96, _⟩ => ⟨S48x16, .f32⟩
  | .hbm, ⟨97, _⟩ => ⟨S8x6x16, .f32⟩
  | .hbm, ⟨98, _⟩ => ⟨S8x1x16, .f32⟩
  | .hbm, ⟨99, _⟩ => ⟨S8x16, .f32⟩
  | .hbm, ⟨100, _⟩ => ⟨S_, .f32⟩
  | .hbm, ⟨101, _⟩ => ⟨S8x16, .f32⟩
  | .hbm, ⟨102, _⟩ => ⟨S8x16, .f32⟩
  | .hbm, ⟨103, _⟩ => ⟨S16x1, .f32⟩
  | .hbm, ⟨104, _⟩ => ⟨S8x1, .f32⟩
  | .hbm, ⟨105, _⟩ => ⟨S1x1, .f32⟩
  | .hbm, ⟨106, _⟩ => ⟨S8x1, .f32⟩
  | .hbm, ⟨107, _⟩ => ⟨S8x1, .f32⟩
  | .local _ .vmem, ⟨0, _⟩ => ⟨S48x512, .f32⟩
  | .local _ .vmem, ⟨1, _⟩ => ⟨S48x512, .f32⟩
  | .local _ .vmem, ⟨2, _⟩ => ⟨S48x512, .f32⟩
  | .local _ .vmem, ⟨3, _⟩ => ⟨S48x512, .f32⟩
  | .local _ .vmem, ⟨4, _⟩ => ⟨S2x16, .f32⟩
  | .local _ .vmem, ⟨5, _⟩ => ⟨S16, .f32⟩
  | .local _ .vmem, ⟨6, _⟩ => ⟨S16, .f32⟩
  | .local _ .vmem, ⟨7, _⟩ => ⟨S2x16, .f32⟩
  | .local _ .vmem, ⟨8, _⟩ => ⟨S16, .f32⟩
  | .local _ .vmem, ⟨9, _⟩ => ⟨S16, .f32⟩
  | .local _ .vmem, ⟨10, _⟩ => ⟨S48x16, .f32⟩
  | .local _ .vmem, ⟨11, _⟩ => ⟨S48x16, .f32⟩
  | _, _ => ⟨S8x6x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_c_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_call1_v0 : Ref sig .tc := ⟨.hbm, 88, rfl⟩
abbrev main_v58 : Ref sig .tc := ⟨.hbm, 89, rfl⟩
abbrev main_c_16 : Ref sig .tc := ⟨.hbm, 90, rfl⟩
abbrev main_call2_v0 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call3_cst : Ref sig .tc := ⟨.hbm, 100, rfl⟩
abbrev main_call3_v0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S48x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S8x6x50000x1_S8x6x50000 : S8x6x50000x1.ShapeCasts S8x6x50000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S8x6x50000 : S_.BroadcastsInDim S8x6x50000 (![] : Fin 0 → Fin S8x6x50000.rank)
  bcast_S1600000_S1x1x1600000_2 : S1600000.BroadcastsInDim S1x1x1600000 (![2] : Fin 1 → Fin S1x1x1600000.rank)
  bcast_S1x1x1600000_S8x6x1600000_0_1_2 : S1x1x1600000.BroadcastsInDim S8x6x1600000 (![0, 1, 2] : Fin 3 → Fin S8x6x1600000.rank)
  shapeCasts_S8x6x50000_S48x50000 : S8x6x50000.ShapeCasts S48x50000
  pads_S48x50000_S48x50176_000_01760 : S48x50000.Pads (![0, 0] : Fin 2 → Nat) ![0, 176] ![0, 0] S48x50176
  h_S_ : 0 < S_.numel
  inb_S48x16_S48x16_0_0 : ∀ a, (![0, 0] : Fin 2 → Nat) a + S48x16.size a ≤ S48x16.size a
  h_S48x16 : 0 < S48x16.numel
  shapeCasts_S48x16_S48x16 : S48x16.ShapeCasts S48x16
  inb_S48x512_S48x512_0_0 : ∀ a, (![0, 0] : Fin 2 → Nat) a + S48x512.size a ≤ S48x512.size a
  h_S48x512 : 0 < S48x512.numel
  shapeCasts_S48x512_S48x512 : S48x512.ShapeCasts S48x512
  inb_S2x16_S2x16_0_0 : ∀ a, (![0, 0] : Fin 2 → Nat) a + S2x16.size a ≤ S2x16.size a
  h_S2x16 : 0 < S2x16.numel
  inb_S16_S16_0 : ∀ a, (![0] : Fin 1 → Nat) a + S16.size a ≤ S16.size a
  h_S16 : 0 < S16.numel
  shapeCasts_S48x512_S48x1x512 : S48x512.ShapeCasts S48x1x512
  slices_S2x16_o0_0_S1x16 : S2x16.Slices ![0, 0] S1x16
  shapeCasts_S1x16_S16 : S1x16.ShapeCasts S16
  shapeCasts_S16_S1x16x1 : S16.ShapeCasts S1x16x1
  slices_S2x16_o1_0_S1x16 : S2x16.Slices ![1, 0] S1x16
  broadcasts_S48x1x512_S48x16x512 : S48x1x512.Broadcasts S48x16x512
  broadcasts_S1x16x1_S48x16x512 : S1x16x1.Broadcasts S48x16x512
  iota_S1x1x512_d2_w32 : S1x1x512.Iotas .tc 32 [2]
  natLt_1_32 : 1 < 32
  broadcasts_S1x1x512_S48x16x512 : S1x1x512.Broadcasts S48x16x512
  reduces_S48x16x512_S48x16 : S48x16x512.Reduces [2] S48x16
  bcast_S_S48x16 : S_.BroadcastsInDim S48x16 (![] : Fin 0 → Fin S48x16.rank)
  shapeCasts_S48x16_S8x6x16 : S48x16.ShapeCasts S8x6x16
  slices_S8x6x16_S8x1x16_0_5_0 : S8x6x16.Slices ![0, 5, 0] S8x1x16
  shapeCasts_S8x1x16_S8x16 : S8x1x16.ShapeCasts S8x16
  bcast_S_S8x16 : S_.BroadcastsInDim S8x16 (![] : Fin 0 → Fin S8x16.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S8x6x50000_S1600000x1_S8x6x1600000_01_2_n_n_2_1_861_wf : GatherDims.WF S8x6x50000 S1600000x1 S8x6x1600000 [0, 1] [2] [] [2] [] 1 ![8, 6, 1]
  scatter_S8x6x50000_S1600000x1_S8x6x1600000_01_2_2_1_wf : ScatterDims.WF S8x6x50000 S1600000x1 S8x6x1600000 [0, 1] [2] [2] 1
  dot_S8x16_S16x1_S8x1_1_0_0_1_n_n_wf : DotDims.WF S8x16 S16x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x512.size a ≤ S48x50176.size a
  hwx0_0 : ∀ i : grid0.Coords, EltTy.bits .f32 = 32 ∨ (Rect.block (s := S48x50176) S48x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x512.size a ≤ S48x50176.size a
  hwx0_1 : ∀ i : grid0.Coords, EltTy.bits .f32 = 32 ∨ (Rect.block (s := S48x50176) S48x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16.size a ≤ S2x16.size a
  hwx0_2 : ∀ i : grid0.Coords, EltTy.bits .f32 = 32 ∨ (Rect.block (s := S2x16) S2x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x16.size a ≤ S2x16.size a
  hwx0_5 : ∀ i : grid0.Coords, EltTy.bits .f32 = 32 ∨ (Rect.block (s := S2x16) S2x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S48x16.size a ≤ S48x16.size a
  hwx0_8 : ∀ i : grid0.Coords, EltTy.bits .f32 = 32 ∨ (Rect.block (s := S48x16) S48x16.size (cc0_transform_8 i) (hinb0_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S8x6x50000_S1600000x1_S8x6x1600000_01_2_n_n_2_1_861 : GatherDims S8x6x50000 S1600000x1 S8x6x1600000 where
  offsetDims := [0, 1]
  collapsedSliceDims := [2]
  operandBatchingDims := []
  startIndicesBatchingDims := []
  startIndexMap := [2]
  indexVectorDim := 1
  sliceSizes := ![8, 6, 1]
  wf := gather_S8x6x50000_S1600000x1_S8x6x1600000_01_2_n_n_2_1_861_wf
def scatter_S8x6x50000_S1600000x1_S8x6x1600000_01_2_2_1 : ScatterDims S8x6x50000 S1600000x1 S8x6x1600000 where
  updateWindowDims := [0, 1]
  insertedWindowDims := [2]
  scatterDimsToOperandDims := [2]
  indexVectorDim := 1
  wf := scatter_S8x6x50000_S1600000x1_S8x6x1600000_01_2_2_1_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

abbrev win0_0 : Pipeline.Window sig grid0 :=
  Pipeline.Window.ofSpec (Memref.whole main_v58) S48x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S48x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S48x16.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S8x6x50000 : Shape := ⟨3, ![8, 6, 50000]⟩
abbrev S_ : Shape := ⟨0, ![]⟩
abbrev S50000 : Shape := ⟨1, ![50000]⟩
abbrev S1600000x1 : Shape := ⟨2, ![1600000, 1]⟩
abbrev S8x6x1600000 : Shape := ⟨3, ![8, 6, 1600000]⟩
abbrev S1x1x1600000 : Shape := ⟨3, ![1, 1, 1600000]⟩
abbrev S1x1x1x16 : Shape := ⟨4, ![1, 1, 1, 16]⟩
abbrev S8x6x50000x16 : Shape := ⟨4, ![8, 6, 50000, 16]⟩
abbrev S8x6x16 : Shape := ⟨3, ![8, 6, 16]⟩
abbrev S8x1x16 : Shape := ⟨3, ![8, 1, 16]⟩
abbrev S8x16 : Shape := ⟨2, ![8, 16]⟩
abbrev S16x1 : Shape := ⟨2, ![16, 1]⟩
abbrev S8x1 : Shape := ⟨2, ![8, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S8x6x50000x1, .f32⟩
  | 1 => ⟨S2x1600000, .i32⟩
  | 2 => ⟨S2x16, .f32⟩
  | 3 => ⟨S16, .f32⟩
  | 4 => ⟨S16, .f32⟩
  | 5 => ⟨S2x16, .f32⟩
  | 6 => ⟨S16, .f32⟩
  | 7 => ⟨S16, .f32⟩
  | 8 => ⟨S1x16, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S8x6x50000, .f32⟩
  | 15 => ⟨S_, .f32⟩
  | 16 => ⟨S50000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .f32⟩
  | 63 => ⟨S8x6x50000, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S8x6x1600000, .f32⟩
  | 73 => ⟨S1x1x1600000, .f32⟩
  | 74 => ⟨S8x6x1600000, .f32⟩
  | 75 => ⟨S8x6x1600000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S8x6x50000, .f32⟩
  | 85 => ⟨S8x6x50000x1, .f32⟩
  | 86 => ⟨S1x16, .f32⟩
  | 87 => ⟨S16, .f32⟩
  | 88 => ⟨S1x1x1x16, .f32⟩
  | 89 => ⟨S8x6x50000x16, .f32⟩
  | 90 => ⟨S8x6x50000x16, .f32⟩
  | 91 => ⟨S8x6x50000x16, .f32⟩
  | 92 => ⟨S8x6x50000x1, .f32⟩
  | 93 => ⟨S1x16, .f32⟩
  | 94 => ⟨S16, .f32⟩
  | 95 => ⟨S1x1x1x16, .f32⟩
  | 96 => ⟨S8x6x50000x16, .f32⟩
  | 97 => ⟨S8x6x50000x16, .f32⟩
  | 98 => ⟨S8x6x50000x16, .f32⟩
  | 99 => ⟨S8x6x50000x16, .f32⟩
  | 100 => ⟨S1x1x1x16, .f32⟩
  | 101 => ⟨S8x6x50000x16, .f32⟩
  | 102 => ⟨S8x6x50000x16, .f32⟩
  | 103 => ⟨S1x1x1x16, .f32⟩
  | 104 => ⟨S8x6x50000x16, .f32⟩
  | 105 => ⟨S8x6x50000x16, .f32⟩
  | 106 => ⟨S8x6x50000x16, .f32⟩
  | 107 => ⟨S8x6x50000x16, .f32⟩
  | 108 => ⟨S_, .f32⟩
  | 109 => ⟨S8x6x50000x16, .f32⟩
  | 110 => ⟨S8x6x50000x16, .f32⟩
  | 111 => ⟨S_, .f32⟩
  | 112 => ⟨S8x6x50000x16, .f32⟩
  | 113 => ⟨S8x6x50000x16, .f32⟩
  | 114 => ⟨S8x6x50000x1, .f32⟩
  | 115 => ⟨S1x16, .f32⟩
  | 116 => ⟨S16, .f32⟩
  | 117 => ⟨S1x1x1x16, .f32⟩
  | 118 => ⟨S8x6x50000x16, .f32⟩
  | 119 => ⟨S8x6x50000x16, .f32⟩
  | 120 => ⟨S8x6x50000x16, .f32⟩
  | 121 => ⟨S8x6x50000x1, .f32⟩
  | 122 => ⟨S1x16, .f32⟩
  | 123 => ⟨S16, .f32⟩
  | 124 => ⟨S1x1x1x16, .f32⟩
  | 125 => ⟨S8x6x50000x16, .f32⟩
  | 126 => ⟨S8x6x50000x16, .f32⟩
  | 127 => ⟨S8x6x50000x16, .f32⟩
  | _ => ⟨S8x6x50000x1, .f32⟩

abbrev hbmTy0_1 (i : Nat) : BufTy := match i % 128 with
  | 0 => ⟨S8x6x50000x16, .f32⟩
  | 1 => ⟨S1x1x1x16, .f32⟩
  | 2 => ⟨S8x6x50000x16, .f32⟩
  | 3 => ⟨S8x6x50000x16, .f32⟩
  | 4 => ⟨S1x1x1x16, .f32⟩
  | 5 => ⟨S8x6x50000x16, .f32⟩
  | 6 => ⟨S8x6x50000x16, .f32⟩
  | 7 => ⟨S8x6x50000x16, .f32⟩
  | 8 => ⟨S_, .f32⟩
  | 9 => ⟨S8x6x50000x16, .f32⟩
  | 10 => ⟨S8x6x50000x16, .f32⟩
  | 11 => ⟨S8x6x50000x16, .f32⟩
  | 12 => ⟨S_, .f32⟩
  | 13 => ⟨S8x6x16, .f32⟩
  | 14 => ⟨S_, .f32⟩
  | 15 => ⟨S8x6x16, .f32⟩
  | 16 => ⟨S8x6x16, .f32⟩
  | 17 => ⟨S8x1x16, .f32⟩
  | 18 => ⟨S8x16, .f32⟩
  | 19 => ⟨S_, .f32⟩
  | 20 => ⟨S8x16, .f32⟩
  | 21 => ⟨S8x16, .f32⟩
  | 22 => ⟨S16x1, .f32⟩
  | 23 => ⟨S8x1, .f32⟩
  | 24 => ⟨S1x1, .f32⟩
  | 25 => ⟨S8x1, .f32⟩
  | 26 => ⟨S8x1, .f32⟩
  | _ => ⟨S8x6x50000x1, .f32⟩

abbrev hbmTy (i : Nat) : BufTy := match i / 128 with
  | 0 => hbmTy0_0 i
  | 1 => hbmTy0_1 i
  | _ => ⟨S8x6x50000x1, .f32⟩

abbrev bufTy : (tb : Table) → Fin (tcTables nBuf tb) → BufTy
  | .hbm, ⟨i, _⟩ => hbmTy i
  | _, _ => ⟨S8x6x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_c_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_call1_cst : Ref sig .tc := ⟨.hbm, 147, rfl⟩
abbrev main_call1_v0 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S8x6x50000x1_S8x6x50000 : S8x6x50000x1.ShapeCasts S8x6x50000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S8x6x50000 : S_.BroadcastsInDim S8x6x50000 (![] : Fin 0 → Fin S8x6x50000.rank)
  bcast_S1600000_S1x1x1600000_2 : S1600000.BroadcastsInDim S1x1x1600000 (![2] : Fin 1 → Fin S1x1x1600000.rank)
  bcast_S1x1x1600000_S8x6x1600000_0_1_2 : S1x1x1600000.BroadcastsInDim S8x6x1600000 (![0, 1, 2] : Fin 3 → Fin S8x6x1600000.rank)
  bcast_S8x6x50000_S8x6x50000x1_0_1_2 : S8x6x50000.BroadcastsInDim S8x6x50000x1 (![0, 1, 2] : Fin 3 → Fin S8x6x50000x1.rank)
  slices_S2x16_S1x16_0_0 : S2x16.Slices ![0, 0] S1x16
  shapeCasts_S1x16_S16 : S1x16.ShapeCasts S16
  bcast_S16_S1x1x1x16_3 : S16.BroadcastsInDim S1x1x1x16 (![3] : Fin 1 → Fin S1x1x1x16.rank)
  bcast_S8x6x50000x1_S8x6x50000x16_0_1_2_3 : S8x6x50000x1.BroadcastsInDim S8x6x50000x16 (![0, 1, 2, 3] : Fin 4 → Fin S8x6x50000x16.rank)
  bcast_S1x1x1x16_S8x6x50000x16_0_1_2_3 : S1x1x1x16.BroadcastsInDim S8x6x50000x16 (![0, 1, 2, 3] : Fin 4 → Fin S8x6x50000x16.rank)
  slices_S2x16_S1x16_1_0 : S2x16.Slices ![1, 0] S1x16
  bcast_S_S8x6x50000x16 : S_.BroadcastsInDim S8x6x50000x16 (![] : Fin 0 → Fin S8x6x50000x16.rank)
  reducesTo_S8x6x50000x16_S8x6x16_d2 : S8x6x50000x16.ReducesTo [2] S8x6x16
  h_S_ : 0 < S_.numel
  bcast_S_S8x6x16 : S_.BroadcastsInDim S8x6x16 (![] : Fin 0 → Fin S8x6x16.rank)
  slices_S8x6x16_S8x1x16_0_5_0 : S8x6x16.Slices ![0, 5, 0] S8x1x16
  shapeCasts_S8x1x16_S8x16 : S8x1x16.ShapeCasts S8x16
  bcast_S_S8x16 : S_.BroadcastsInDim S8x16 (![] : Fin 0 → Fin S8x16.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S8x6x50000_S1600000x1_S8x6x1600000_01_2_n_n_2_1_861_wf : GatherDims.WF S8x6x50000 S1600000x1 S8x6x1600000 [0, 1] [2] [] [2] [] 1 ![8, 6, 1]
  scatter_S8x6x50000_S1600000x1_S8x6x1600000_01_2_2_1_wf : ScatterDims.WF S8x6x50000 S1600000x1 S8x6x1600000 [0, 1] [2] [2] 1
  dot_S8x16_S16x1_S8x1_1_0_0_1_n_n_wf : DotDims.WF S8x16 S16x1 S8x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S8x6x50000_S1600000x1_S8x6x1600000_01_2_n_n_2_1_861 : GatherDims S8x6x50000 S1600000x1 S8x6x1600000 where
  offsetDims := [0, 1]
  collapsedSliceDims := [2]
  operandBatchingDims := []
  startIndicesBatchingDims := []
  startIndexMap := [2]
  indexVectorDim := 1
  sliceSizes := ![8, 6, 1]
  wf := gather_S8x6x50000_S1600000x1_S8x6x1600000_01_2_n_n_2_1_861_wf
def scatter_S8x6x50000_S1600000x1_S8x6x1600000_01_2_2_1 : ScatterDims S8x6x50000 S1600000x1 S8x6x1600000 where
  updateWindowDims := [0, 1]
  insertedWindowDims := [2]
  scatterDimsToOperandDims := [2]
  indexVectorDim := 1
  wf := scatter_S8x6x50000_S1600000x1_S8x6x1600000_01_2_2_1_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

class Facts : Prop extends Facts₀ where

variable [Facts]
-- ==== Proof.Pieces.lean ====
/-
  What one grid point of the pooling kernel leaves behind, as a value.

  At every point the body adds to a 48 x 16 accumulator (kept in a scratch buffer between points) the lane sums of the
  point's 48 x 16 x 512 masked cells, and copies the accumulator to the output block.  At the first point the accumulator
  is first reset to zero.  So both the scratch and the output block end a point holding `step` of the point's input
  blocks and of the accumulator the point started from: the zero block at the first point (case A), what the point before
  left otherwise (case B).  The statements hold at any float instance: they only open the stores' covering pieces.
-/
import proofs.«132057_j9809705304183_1_alg».proof.Proof.Gen.KernelIdeal.Frame
import Idealize.ShloMosaic.Lib.Pipeline.Value

noncomputable section

namespace Cert.KernelIdeal.Pool

open Idealize.ShloMosaic Idealize.ShloMosaic.TcCoe Idealize.SL.Sem
open Cert.KernelIdeal Cert.KernelIdeal.Gen

variable {F : FTy → Type} [FloatOps F]

/-- The accumulator after a point: the accumulator before it plus the lane sums of the point's masked cells — the one
    store's payload over the loads' values (x0, x1 the two 48 x 512 feature blocks; x2 … x7 the weights and biases). -/
def step (i : grid0.Coords) (x0 : Vec F S48x512 .f32) (x1 : Vec F S48x512 .f32) (x2 : Vec F S2x16 .f32) (x3 : Vec F S16 .f32) (x4 : Vec F S16 .f32) (x5 : Vec F S2x16 .f32) (x6 : Vec F S16 .f32) (x7 : Vec F S16 .f32) (acc : Vec F S48x16 .f32) : Vec F S48x16 .f32 :=
  k0_pay1 (BitVec.ofNat 32 (i 0).val) (k0_pay5 x5) (k0_pay6 x6 x7) (k0_pay7 x0 x1 x2 x3 x4) (k0_pay8 x0 x5) (k0_pay9 x1) acc

/-- The zero block the first point resets the accumulator to. -/
abbrev zeroAcc : Vec F S48x16 .f32 := k0_pay2

/-- The zero offsets of a rank-2 block, as the constant function. -/
private theorem hz : (![0, 0] : Fin 2 → Nat) = fun _ => 0 := funext fun a => by fin_cases a <;> rfl

/-- The zero offset of a rank-1 block, as the constant function. -/
private theorem hz1 : (![0] : Fin 1 → Nat) = fun _ => 0 := funext fun a => by fin_cases a <;> rfl

/-- CASE A, the scratch (the first point). Two stores reach it, each over the whole block: the reset to zero, then the
    update, which is last and so is what the block holds. The update's payload reads the accumulator back after the
    reset, through the whole block: it reads the zero block. The other loads read whole input blocks: their contents. -/
theorem sout_A (c : Dev nD) (i : grid0.Coords) (arg1 : Memref sig .tc .vmem S48x512 .f32) (harg1 : arg1.IsWhole) (arg2 : Memref sig .tc .vmem S48x512 .f32) (harg2 : arg2.IsWhole) (arg3 : Memref sig .tc .vmem S2x16 .f32) (harg3 : arg3.IsWhole) (arg4 : Memref sig .tc .vmem S16 .f32) (harg4 : arg4.IsWhole) (arg5 : Memref sig .tc .vmem S16 .f32) (harg5 : arg5.IsWhole) (arg6 : Memref sig .tc .vmem S2x16 .f32) (harg6 : arg6.IsWhole) (arg7 : Memref sig .tc .vmem S16 .f32) (harg7 : arg7.IsWhole) (arg8 : Memref sig .tc .vmem S16 .f32) (harg8 : arg8.IsWhole) (arg9 : Memref sig .tc .vmem S48x16 .f32) (harg9 : arg9.IsWhole) (arg10 : Memref sig .tc .vmem S48x16 .f32) (harg10 : arg10.IsWhole) (hc0 : cond0_0 i) (x0 : Vec F S48x512 .f32) (x1 : Vec F S48x512 .f32) (x2 : Vec F S2x16 .f32) (x3 : Vec F S16 .f32) (x4 : Vec F S16 .f32) (x5 : Vec F S2x16 .f32) (x6 : Vec F S16 .f32) (x7 : Vec F S16 .f32) :
    sout0_A_0 c i arg1 harg1 arg2 harg2 arg3 harg3 arg4 harg4 arg5 harg5 arg6 harg6 arg7 harg7 arg8 harg8 arg9 harg9 arg10 harg10 hc0 x0 x1 x2 x3 x4 x5 x6 x7 = step i x0 x1 x2 x3 x4 x5 x6 x7 zeroAcc := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S48x16) hz, View.readCov_unit_zero (S := S48x16) _ hz]
  unfold step
  simp only [View.readAt_eq_ld, harg1.read_unread, harg2.read_unread, harg3.read_unread, harg4.read_unread,
    harg5.read_unread, harg6.read_unread, harg7.read_unread, harg8.read_unread,
    View.ld_unit_zero (S := S48x16) hz, View.ld_unit_zero (S := S48x512) hz, View.ld_unit_zero (S := S2x16) hz,
    View.ld_unit_zero (S := S16) hz1, shapeCast_self]

/-- CASE A, the output block. Its one store, over the whole block, writes the scratch as read back after the update:
    a load through the update's own rectangle, which reads the update's payload whatever the reset wrote before. So the
    output block holds what the scratch holds. -/
theorem out_A (c : Dev nD) (i : grid0.Coords) (arg1 : Memref sig .tc .vmem S48x512 .f32) (harg1 : arg1.IsWhole) (arg2 : Memref sig .tc .vmem S48x512 .f32) (harg2 : arg2.IsWhole) (arg3 : Memref sig .tc .vmem S2x16 .f32) (harg3 : arg3.IsWhole) (arg4 : Memref sig .tc .vmem S16 .f32) (harg4 : arg4.IsWhole) (arg5 : Memref sig .tc .vmem S16 .f32) (harg5 : arg5.IsWhole) (arg6 : Memref sig .tc .vmem S2x16 .f32) (harg6 : arg6.IsWhole) (arg7 : Memref sig .tc .vmem S16 .f32) (harg7 : arg7.IsWhole) (arg8 : Memref sig .tc .vmem S16 .f32) (harg8 : arg8.IsWhole) (arg9 : Memref sig .tc .vmem S48x16 .f32) (harg9 : arg9.IsWhole) (arg10 : Memref sig .tc .vmem S48x16 .f32) (harg10 : arg10.IsWhole) (hc0 : cond0_0 i) (x0 : Vec F S48x512 .f32) (x1 : Vec F S48x512 .f32) (x2 : Vec F S2x16 .f32) (x3 : Vec F S16 .f32) (x4 : Vec F S16 .f32) (x5 : Vec F S2x16 .f32) (x6 : Vec F S16 .f32) (x7 : Vec F S16 .f32) :
    out0_A_8 c i arg1 harg1 arg2 harg2 arg3 harg3 arg4 harg4 arg5 harg5 arg6 harg6 arg7 harg7 arg8 harg8 arg9 harg9 arg10 harg10 hc0 x0 x1 x2 x3 x4 x5 x6 x7 = step i x0 x1 x2 x3 x4 x5 x6 x7 zeroAcc := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_unit_zero (S := S48x16) hz, View.readCov_unit_zero (S := S48x16) _ hz, View.readCov_cons_toLoadRect]
  unfold step
  simp only [View.readAt_eq_ld, harg1.read_unread, harg2.read_unread, harg3.read_unread, harg4.read_unread,
    harg5.read_unread, harg6.read_unread, harg7.read_unread, harg8.read_unread,
    View.ld_unit_zero (S := S48x16) hz, View.ld_unit_zero (S := S48x512) hz, View.ld_unit_zero (S := S2x16) hz,
    View.ld_unit_zero (S := S16) hz1, shapeCast_self]

/-- CASE B, the scratch (any later point). One store reaches it, over the whole block: the update, whose payload reads
    the accumulator as the point found it (`xs0`) and the whole input blocks. -/
theorem sout_B (c : Dev nD) (i : grid0.Coords) (arg1 : Memref sig .tc .vmem S48x512 .f32) (harg1 : arg1.IsWhole) (arg2 : Memref sig .tc .vmem S48x512 .f32) (harg2 : arg2.IsWhole) (arg3 : Memref sig .tc .vmem S2x16 .f32) (harg3 : arg3.IsWhole) (arg4 : Memref sig .tc .vmem S16 .f32) (harg4 : arg4.IsWhole) (arg5 : Memref sig .tc .vmem S16 .f32) (harg5 : arg5.IsWhole) (arg6 : Memref sig .tc .vmem S2x16 .f32) (harg6 : arg6.IsWhole) (arg7 : Memref sig .tc .vmem S16 .f32) (harg7 : arg7.IsWhole) (arg8 : Memref sig .tc .vmem S16 .f32) (harg8 : arg8.IsWhole) (arg9 : Memref sig .tc .vmem S48x16 .f32) (harg9 : arg9.IsWhole) (arg10 : Memref sig .tc .vmem S48x16 .f32) (harg10 : arg10.IsWhole) (hc0 : ¬cond0_0 i) (x0 : Vec F S48x512 .f32) (x1 : Vec F S48x512 .f32) (x2 : Vec F S2x16 .f32) (x3 : Vec F S16 .f32) (x4 : Vec F S16 .f32) (x5 : Vec F S2x16 .f32) (x6 : Vec F S16 .f32) (x7 : Vec F S16 .f32) (xs0 : Vec F S48x16 .f32) :
    sout0_B_0 c i arg1 harg1 arg2 harg2 arg3 harg3 arg4 harg4 arg5 harg5 arg6 harg6 arg7 harg7 arg8 harg8 arg9 harg9 arg10 harg10 hc0 x0 x1 x2 x3 x4 x5 x6 x7 xs0 = step i x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero (S := S48x16) hz]
  unfold step
  simp only [View.readAt_eq_ld, harg1.read_unread, harg2.read_unread, harg3.read_unread, harg4.read_unread,
    harg5.read_unread, harg6.read_unread, harg7.read_unread, harg8.read_unread, harg10.read_unread,
    View.ld_unit_zero (S := S48x16) hz, View.ld_unit_zero (S := S48x512) hz, View.ld_unit_zero (S := S2x16) hz,
    View.ld_unit_zero (S := S16) hz1, shapeCast_self]

/-- CASE B, the output block. Its one store writes the scratch as read back after the update, through the whole block
    that the update's one piece covers: the update's payload. So the output block holds what the scratch holds. -/
theorem out_B (c : Dev nD) (i : grid0.Coords) (arg1 : Memref sig .tc .vmem S48x512 .f32) (harg1 : arg1.IsWhole) (arg2 : Memref sig .tc .vmem S48x512 .f32) (harg2 : arg2.IsWhole) (arg3 : Memref sig .tc .vmem S2x16 .f32) (harg3 : arg3.IsWhole) (arg4 : Memref sig .tc .vmem S16 .f32) (harg4 : arg4.IsWhole) (arg5 : Memref sig .tc .vmem S16 .f32) (harg5 : arg5.IsWhole) (arg6 : Memref sig .tc .vmem S2x16 .f32) (harg6 : arg6.IsWhole) (arg7 : Memref sig .tc .vmem S16 .f32) (harg7 : arg7.IsWhole) (arg8 : Memref sig .tc .vmem S16 .f32) (harg8 : arg8.IsWhole) (arg9 : Memref sig .tc .vmem S48x16 .f32) (harg9 : arg9.IsWhole) (arg10 : Memref sig .tc .vmem S48x16 .f32) (harg10 : arg10.IsWhole) (hc0 : ¬cond0_0 i) (x0 : Vec F S48x512 .f32) (x1 : Vec F S48x512 .f32) (x2 : Vec F S2x16 .f32) (x3 : Vec F S16 .f32) (x4 : Vec F S16 .f32) (x5 : Vec F S2x16 .f32) (x6 : Vec F S16 .f32) (x7 : Vec F S16 .f32) (xs0 : Vec F S48x16 .f32) :
    out0_B_8 c i arg1 harg1 arg2 harg2 arg3 harg3 arg4 harg4 arg5 harg5 arg6 harg6 arg7 harg7 arg8 harg8 arg9 harg9 arg10 harg10 hc0 x0 x1 x2 x3 x4 x5 x6 x7 xs0 = step i x0 x1 x2 x3 x4 x5 x6 x7 xs0 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero (S := S48x16) hz, View.readCov_unit_zero (S := S48x16) _ hz]
  unfold step
  simp only [View.readAt_eq_ld, harg1.read_unread, harg2.read_unread, harg3.read_unread, harg4.read_unread,
    harg5.read_unread, harg6.read_unread, harg7.read_unread, harg8.read_unread, harg10.read_unread,
    View.ld_unit_zero (S := S48x16) hz, View.ld_unit_zero (S := S48x512) hz, View.ld_unit_zero (S := S2x16) hz,
    View.ld_unit_zero (S := S16) hz1, shapeCast_self]

end Cert.KernelIdeal.Pool

end
-- ==== Proof.Accum.lean ====
/-
  The accumulator point by point, and the array the region leaves.

  After point n the scratch accumulator and the output block both hold `accAt n`: the zero block stepped through the
  points 0 … n in order (`outsAt_eq`, by induction on the point: the first point is the kernel's reset case, every
  later one the carry case).  The output window's block never moves and is written back once, after the last point, and
  that block is the whole 48 x 16 array: so the array ends holding `accAt 97` (`final_sum`).
-/
import proofs.«132057_j9809705304183_1_alg».proof.Proof.Pieces
import Idealize.ShloMosaic.Lib.Pipeline.Value

noncomputable section

namespace Cert.KernelIdeal.Pool

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The accumulator after point n: the zero block stepped through points 0 … n. -/
def accAt (c : Dev nD) : (n : ℕ) → n < cfg0.N → Vec F S48x16 .f32
  | 0, h => step (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) zeroAcc
  | n + 1, h => step (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt c n (Nat.lt_of_succ_lt h))

/-- After every point the output block and the scratch both hold the accumulator. -/
theorem outsAt_eq (c : Dev nD) : ∀ (n : ℕ) (h : n < cfg0.N), outsAt0 m c n h = (accAt m c n h, accAt m c n h)
  | 0, h => by
    rw [outsAt0_A m c ⟨0, h⟩ rfl, out_A, sout_A]
    rfl
  | n + 1, h => by
    have hN : cfg0.N = 98 := N_0
    have hB : ¬(⟨n + 1, h⟩ : Fin cfg0.N).val % 98 = 0 := by dsimp only; omega
    rw [outsAt0_B m c ⟨n + 1, h⟩ hB, out_B, sout_B]
    show (step _ _ _ _ _ _ _ _ _ (outsAt0 m c n _).2, step _ _ _ _ _ _ _ _ _ (outsAt0 m c n _).2) = _
    rw [outsAt_eq c n]
    rfl

theorem lastLt : 97 < cfg0.N := by rw [show cfg0.N = 98 from N_0]; decide

/-- The last point. -/
abbrev tLast : Fin cfg0.N := ⟨97, lastLt⟩

/-- What the region leaves in its result array: the accumulator after the last point. -/
abbrev poolSum (c : Dev nD) : Buf (Elt F) ((c : Thread nD τ).loc main_v60) := accAt m c 97 lastLt

/-- The one write-back, after point 97, writes the accumulator: the block at index (0, 0) of the 48 x 16 array is the array. -/
theorem flushed_eq (c : Dev nD) (t : Fin cfg0.N) (hf : (cfg0.win 8).flush t = true) :
    (dats m 0 c).flushed 8 t = ((cfg0.win 8).blk t).view.read (Elt F) (poolSum m c) := by
  have hN : cfg0.N = 98 := N_0
  have h97 : t.val = 97 := by have := (flush0_8 t).mp hf; have := t.isLt; omega
  obtain rfl : t = tLast := Fin.ext h97
  show (cfg0.win 8).cut (grid0.coords tLast) ((dats m 0 c).after 8 tLast) = _
  rw [after0_8, outsAt_eq]
  have hz' : (fun a => win0_8.index tLast a * main_v60.ty.shape.size a) = fun _ => 0 := funext fun a => by fin_cases a <;> decide +kernel
  exact (Memref.read_access_unit_zero (Elt F) main_v60 hz' (fun a => by rw [congrFun hz' a]; simp) (poolSum m c)).symm

theorem final_sum (c : Dev nD) : (dats m 0 c).arrAt 8 cfg0.N = poolSum m c :=
  (dats m 0 c).arrAt_eq_of_cover 8 (poolSum m c) (flushed_eq m c) fun i =>
    ⟨tLast, (flush0_8 tLast).mpr rfl, by
      show i ∈ ((View.whole main_v60).slice (win0_8.rect tLast)).set
      rw [View.set_slice_whole, Rect.mem_set_unit]
      intro a
      have h0 : (i 0 : Nat) < 48 := (i 0).isLt
      have h1 : (i 1 : Nat) < 16 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 48 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 16 from by decide +kernel]; omega⟩

end Cert.KernelIdeal.Pool

end
-- ==== Proof.HostTail.lean ====
/-
  The host lines after the region, read as one function of the region's sums.

  After the region @main divides the 48 x 16 row sums by 50000, regroups the 48 rows as (8, 6), keeps time step 5,
  applies relu, multiplies by the transposed read-out weights and adds the read-out bias.  `headOf` is that chain from
  the [8,6,16] means on; the program's result is `headOf` of the regrouped quotients of what the region left.
-/
import proofs.«132057_j9809705304183_1_alg».proof.Proof.Gen.KernelIdeal.Frame
import Idealize.ShloMosaic.Lib.StableHlo.Run
import Idealize.ShloMosaic.Lib.Pipeline.Value

noncomputable section

namespace Cert.KernelIdeal.Pool

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The read-out head, from the [8,6,16] means: time step 5, relu, times the transposed weights, plus the bias. -/
def headOf (mean : (⟨S8x6x16, .f32⟩ : BufTy).Contents (Elt F)) (w : (⟨S1x16, .f32⟩ : BufTy).Contents (Elt F))
    (bias : (⟨S1, .f32⟩ : BufTy).Contents (Elt F)) : (⟨S8x1, .f32⟩ : BufTy).Contents (Elt F) :=
  addf (Host.dotGeneral dot_S8x16_S16x1_S8x1_1_0_0_1_n_n none
      (maximumf (shapeCast S8x16 (extractStridedSlice S8x1x16 ![0, 5, 0] mean slices_S8x6x16_S8x1x16_0_5_0) shapeCasts_S8x1x16_S8x16)
        (broadcastInDim S8x16 ![] bcast_S_S8x16 (constant S_ .f32 0x00000000#32)))
      (transpose S16x1 [1, 0] w transposes_S1x16_S16x1_1_0))
    (broadcastInDim S8x1 ![0, 1] bcast_S1x1_S8x1_0_1 (broadcastInDim S1x1 ![1] bcast_S1_S1x1_1 bias))

/-- The [8,6,16] means the kernel's program forms: the row sums over 50000, the 48 rows regrouped as (8, 6). -/
def meansOf (s : (⟨S48x16, .f32⟩ : BufTy).Contents (Elt F)) : (⟨S8x6x16, .f32⟩ : BufTy).Contents (Elt F) :=
  shapeCast S8x6x16 (Host.divf s (broadcastInDim S48x16 ![] bcast_S_S48x16 (constant S_ .f32 0x47435000#32))) shapeCasts_S48x16_S8x6x16

set_option maxHeartbeats 4000000 in
/-- @main's result after the tail: the head of the means of what the region left in its result array. -/
theorem tail_eq (c : Dev nD) :
    Pipeline.afterTail₀ cfgs (dats m) 0 (V0 m) [hostOps1, hostOps1_1, hostOps1_2] c main_v71
      = headOf (meansOf ((dats m 0 c).arrAt 8 cfg0.N)) (m ((c : Thread nD τ).loc main_arg8)) (m ((c : Thread nD τ).loc main_arg9)) := by
  unfold Pipeline.afterTail₀
  simp only [hostOps1, hostOps1_1, hostOps1_2, List.flatten_cons, List.flatten_nil, List.append_nil, List.cons_append, List.nil_append]
  after_results
  simp only [TRef.ofBuf, TRef.toBuf, cast_eq]
  have e60 : Pipeline.withArrays (cfgs 0).spec c (V0 m c) (fun w => (dats m 0 c).arrAt w (cfgs 0).N) (Proc.devRef .tc main_v60)
      = (dats m 0 c).arrAt 8 cfg0.N := Pipeline.withArrays_arr spec0 launch0.win.arr_inj c _ _ 8
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  rw [e60, e8, e9]
  rfl

end Cert.KernelIdeal.Pool

end
-- ==== Proof.KRun.lean ====
/-
  The kernel program's run, read: its result is the read-out head of the means of the region's row sums, and its
  argument arrays end as launched.
-/
import proofs.«132057_j9809705304183_1_alg».proof.Proof.Accum
import proofs.«132057_j9809705304183_1_alg».proof.Proof.HostTail

noncomputable section

namespace Cert.KernelIdeal.Pool

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The program's result array after the run. -/
abbrev result (c : Dev nD) : Buf (Elt F) ((c.tc : Thread nD τ).loc main_v71) :=
  headOf (meansOf (poolSum m c)) (m ((c : Thread nD τ).loc main_arg8)) (m ((c : Thread nD τ).loc main_arg9))

/-- Every weakly fair execution of the kernel program ends with the result array at `result` and the arguments unchanged:
    the frame run's post read at the result (a buffer the lines after the region write) and at the arguments (a staged
    input keeps its entry contents; an array no window stages keeps what the host lines leave). -/
theorem run : θ_run defs (onTc (τ := τ) (main (F := F))) ⟨m, fun _ => 0, ρ⟩ (fun r => ∀ c : Dev nD,
      r.2.mem ((c.tc : Thread nD τ).loc main_v71) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v71 (Pipeline.mem_restRefs_of main_v71 (by decide) (by decide))).trans
        ((tail_eq m c).trans (by rw [final_sum])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Pool

end
-- ==== Proof.Sweep.lean ====
/-
  The arithmetic that joins the two programs, over the extended reals, away from any program text.

  One cell of the gated sweep is  (1 - sigma(a*wz0 + b*wz1 + bias_z)) * tanh(a*wh0 + b*wh1 + bias_h)  where a is a node's
  feature and b its graph-Laplacian feature.  The kernel adds the two bias vectors first and then adds their sum
  (`cellK`); the reference adds them one after the other and spells the sigmoid as 1 / (1 + exp(-u)) (`cellR`).  Addition of
  extended reals is associative, and the sigmoid IS that quotient, so the two cells are one number (`cellK_eq_cellR`):
  no finiteness is needed.

  The kernel sums a row over 98 tiles of 512 lanes, 50176 columns, each term multiplied by a 0/1 mask that is 1 exactly on
  the first 50000 columns; the reference sums the 50000 columns.  A product with 0 is 0 and with 1 the factor itself on
  every extended real, and a finite sum may be regrouped and reordered freely: `tiled_masked_sum`.
-/
import Idealize.ShloMosaic.PureOps.Ideal
import Idealize.ShloMosaic.Lib.IdealHost
import Mathlib.Algebra.BigOperators.Fin
import Mathlib.Algebra.BigOperators.Intervals

namespace Cert.Sweep

open Idealize.ShloMosaic

/-- The f32 pattern of 1.0 as an extended real. -/
noncomputable abbrev one : EReal := Ideal.ofBits .f32 0x3F800000#32

/-- A cell as the kernel computes it: the two biases of a gate added first. -/
noncomputable def cellK (a b wz0 wz1 bz0 bz1 wh0 wh1 bh0 bh1 : EReal) : EReal :=
  (one - Ideal.logistic (a * wz0 + b * wz1 + (bz0 + bz1))) * Ideal.tanh (a * wh0 + b * wh1 + (bh0 + bh1))

/-- A cell as the reference computes it: the biases added one after the other, the sigmoid written out. -/
noncomputable def cellR (a b wz0 wz1 bz0 bz1 wh0 wh1 bh0 bh1 : EReal) : EReal :=
  (one - Ideal.div one (one + Ideal.exp (-(a * wz0 + b * wz1 + bz0 + bz1)))) * Ideal.tanh (a * wh0 + b * wh1 + bh0 + bh1)

theorem cellK_eq_cellR (a b wz0 wz1 bz0 bz1 wh0 wh1 bh0 bh1 : EReal) :
    cellK a b wz0 wz1 bz0 bz1 wh0 wh1 bh0 bh1 = cellR a b wz0 wz1 bz0 bz1 wh0 wh1 bh0 bh1 := by
  unfold cellK cellR one
  rw [Ideal.ofBits_one_f32, Ideal.logistic, add_assoc (a * wz0 + b * wz1) bz0 bz1, add_assoc (a * wh0 + b * wh1) bh0 bh1]

/-- The column a tile and a lane name. -/
theorem col_lt (t : Fin 98) (l : Fin 512) : 512 * t.val + l.val < 50176 := by
  have := t.isLt; have := l.isLt; omega

/-- The sum over 98 tiles of 512 lanes of the masked terms is the sum over the first 50000 columns. -/
theorem tiled_masked_sum (gp : Fin 50176 → EReal) (g : Fin 50000 → EReal)
    (hg : ∀ (n : ℕ) (h : n < 50000), gp ⟨n, by omega⟩ = g ⟨n, h⟩) :
    (∑ t : Fin 98, ∑ l : Fin 512, gp ⟨512 * t.val + l.val, col_lt t l⟩ * (if 512 * t.val + l.val < 50000 then (1 : EReal) else 0))
      = ∑ n : Fin 50000, g n := by
  -- the masked term as a function of the column alone
  let F : ℕ → EReal := fun n => if h : n < 50000 then g ⟨n, h⟩ else 0
  have hterm : ∀ (t : Fin 98) (l : Fin 512),
      gp ⟨512 * t.val + l.val, col_lt t l⟩ * (if 512 * t.val + l.val < 50000 then (1 : EReal) else 0) = F (512 * t.val + l.val) := by
    intro t l
    by_cases h : 512 * t.val + l.val < 50000
    · simp only [F, h, if_true, dif_pos, mul_one]; exact hg _ h
    · simp only [F, h, if_false, dif_neg, not_false_eq_true, mul_zero]
  simp only [hterm]
  -- pairs (tile, lane) are the columns below 98 * 512
  rw [← Finset.sum_product']
  have e : (∑ p ∈ (Finset.univ : Finset (Fin 98)) ×ˢ (Finset.univ : Finset (Fin 512)), F (512 * p.1.val + p.2.val))
      = ∑ q : Fin (98 * 512), F q.val := by
    rw [Finset.univ_product_univ]
    refine Fintype.sum_equiv finProdFinEquiv _ _ (fun p => ?_)
    show F (512 * p.1.val + p.2.val) = F (p.2.val + 512 * p.1.val)
    rw [add_comm]
  rw [e, Fin.sum_univ_eq_sum_range (fun n => F n) (98 * 512)]
  -- columns from 50000 on contribute nothing
  have hsplit : (98 * 512 : ℕ) = 50000 + 176 := by norm_num
  rw [hsplit, Finset.sum_range_add]
  have hz : ∑ x ∈ Finset.range 176, F (50000 + x) = 0 :=
    Finset.sum_eq_zero fun x _ => by simp only [F]; rw [dif_neg (by omega)]
  rw [hz, add_zero, ← Fin.sum_univ_eq_sum_range (fun n => F n) 50000]
  exact Finset.sum_congr rfl fun n _ => by simp only [F]; rw [dif_pos n.isLt]

end Cert.Sweep
-- ==== Proof.Mask.lean ====
/-
  The kernel's column mask, as numbers.

  At tile t the kernel forms the 32-bit column number 512 * t + l of lane l, compares it (signed) with 50000, widens the
  one-bit answer to 32 bits and converts that integer to a float.  For t < 98 and l < 512 the column is below 50176, far
  from the 32-bit wrap, so the comparison is the comparison of natural numbers and the float is 1 on the first 50000
  columns and 0 on the 176 columns of padding.
-/
import Idealize.ShloMosaic.PureOps.Ideal

namespace Cert.Sweep

open Idealize.ShloMosaic

/-- The widened answer of the comparison "column 512 * t + l is below 50000", as the kernel's integer operations form it. -/
def maskBits (t l : ℕ) : BitVec 32 :=
  (IntOp.cmpi .slt (IntOp.addi (IntOp.muli (BitVec.ofNat 32 t) 512#32) (BitVec.ofNat 32 l)) 50000#32).setWidth 32

theorem maskBits_eq (t l : ℕ) (ht : t < 98) (hl : l < 512) :
    maskBits t l = if 512 * t + l < 50000 then 1#32 else 0#32 := by
  unfold maskBits IntOp.cmpi IntOp.addi IntOp.muli
  have hcol : (BitVec.ofNat 32 t * 512#32 + BitVec.ofNat 32 l) = BitVec.ofNat 32 (512 * t + l) := by
    apply BitVec.eq_of_toNat_eq
    simp only [BitVec.toNat_add, BitVec.toNat_mul, BitVec.toNat_ofNat]
    omega
  rw [hcol]
  have hslt : (BitVec.ofNat 32 (512 * t + l)).slt 50000#32 = decide (512 * t + l < 50000) := by
    have h1 : (BitVec.ofNat 32 (512 * t + l)).toInt = ((512 * t + l : ℕ) : ℤ) := by
      rw [BitVec.toInt_eq_toNat_cond]
      simp only [BitVec.toNat_ofNat]
      have : (512 * t + l) % 2 ^ 32 = 512 * t + l := Nat.mod_eq_of_lt (by omega)
      rw [this, if_pos (by omega)]
    have h2 : (50000#32 : BitVec 32).toInt = 50000 := by decide
    rw [BitVec.slt, h1, h2]
    by_cases h : 512 * t + l < 50000
    · simp only [h, decide_true]; exact decide_eq_true (by omega)
    · simp only [h, decide_false]; exact decide_eq_false (by omega)
  rw [hslt]
  by_cases h : 512 * t + l < 50000
  · simp only [h, decide_true, if_true]; decide
  · simp only [h, decide_false, if_false]; decide

/-- The mask as the extended real the conversion gives: 1 on the first 50000 columns, 0 on the padding. -/
theorem mask_val (t l : ℕ) (ht : t < 98) (hl : l < 512) :
    (FloatOps.sitofp (F := Ideal) .f32 (maskBits t l) : EReal) = if 512 * t + l < 50000 then (1 : EReal) else 0 := by
  show (((maskBits t l).toInt : ℝ) : EReal) = _
  rw [maskBits_eq t l ht hl]
  by_cases h : 512 * t + l < 50000
  · simp only [h, if_true]; norm_num
  · simp only [h, if_false]; norm_num

end Cert.Sweep
-- ==== Proof.StepAt.lean ====
/-
  One grid point's contribution, read at an entry, at the extended reals.

  Entry (r, h) of the accumulator after a point is its entry before the point plus the sum over the 512 lanes l of the
  cell of row r's two features at lane l and gate column h's weights and biases, times the column mask of tile t = i 0
  at lane l.  Every operation between the loads and the lane sum is pointwise or a re-layout: unit axes inserted
  ([48,512] -> [48,1,512], [16] -> [1,16,1]), a row of a [2,16] weight taken, and broadcasts to [48,16,512].
-/
import proofs.«132057_j9809705304183_1_alg».proof.Proof.Pieces
import proofs.«132057_j9809705304183_1_alg».proof.Proof.Sweep
import proofs.«132057_j9809705304183_1_alg».proof.Proof.Mask
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pool

open Idealize.ShloMosaic Idealize.ShloMosaic.ValueIdx
open Cert.KernelIdeal Cert.KernelIdeal.Gen

/-! ## The re-layouts of this kernel, read at an index -/

section Layout
variable {α : Type}

/-- A [48,1,512] block broadcast over the 16 gate columns reads, at (r, h, l), the block at (r, 0, l). -/
theorem bcast_row_apply (v : S48x1x512.Idx → α) (hb : S48x1x512.Broadcasts S48x16x512) (r : Fin 48) (h : Fin 16) (l : Fin 512) :
    broadcastTo S48x16x512 v hb (ix3 r h l) = v (ix3 r (0 : Fin 1) l) :=
  broadcastTo_apply v hb _ _ fun a => match a with | ⟨0, _⟩ => rfl | ⟨1, _⟩ => rfl | ⟨2, _⟩ => rfl

/-- A [1,16,1] column vector broadcast over rows and lanes reads, at (r, h, l), the vector at (0, h, 0). -/
theorem bcast_col_apply (w : S1x16x1.Idx → α) (hb : S1x16x1.Broadcasts S48x16x512) (r : Fin 48) (h : Fin 16) (l : Fin 512) :
    broadcastTo S48x16x512 w hb (ix3 r h l) = w (ix3 (0 : Fin 1) h (0 : Fin 1)) :=
  broadcastTo_apply w hb _ _ fun a => match a with | ⟨0, _⟩ => rfl | ⟨1, _⟩ => rfl | ⟨2, _⟩ => rfl

/-- A [1,1,512] lane vector broadcast over rows and gate columns reads, at (r, h, l), the vector at (0, 0, l). -/
theorem bcast_lane_apply (m : S1x1x512.Idx → α) (hb : S1x1x512.Broadcasts S48x16x512) (r : Fin 48) (h : Fin 16) (l : Fin 512) :
    broadcastTo S48x16x512 m hb (ix3 r h l) = m (ix3 (0 : Fin 1) (0 : Fin 1) l) :=
  broadcastTo_apply m hb _ _ fun a => match a with | ⟨0, _⟩ => rfl | ⟨1, _⟩ => rfl | ⟨2, _⟩ => rfl

/-- A [48,512] block viewed [48,1,512] reads, at (r, 0, l), the block at (r, l). -/
theorem cast_row_apply (x : S48x512.Idx → α) (hc : S48x512.ShapeCasts S48x1x512) (r : Fin 48) (l : Fin 512) :
    shapeCast S48x1x512 x hc (ix3 r (0 : Fin 1) l) = x (ix2 r l) :=
  shapeCast_apply x hc _ _ (by
    rw [Shape.rowMajor_val_two, Shape.rowMajor_val_three]
    show r.val * 512 + l.val = (r.val * 1 + 0) * 512 + l.val
    omega)

/-- A [16] vector viewed [1,16,1] reads, at (0, h, 0), the vector at h. -/
theorem cast_col_apply (b : S16.Idx → α) (hc : S16.ShapeCasts S1x16x1) (h : Fin 16) :
    shapeCast S1x16x1 b hc (ix3 (0 : Fin 1) h (0 : Fin 1)) = b (ix1 h) :=
  shapeCast_apply b hc _ _ (by
    rw [Shape.rowMajor_val_one, Shape.rowMajor_val_three]
    show h.val = (0 * 16 + h.val) * 1 + 0
    omega)

/-- Row a of a [2,16] weight, as a [16] vector viewed [1,16,1], reads, at (0, h, 0), the weight at (a, h). -/
theorem row_col_apply (o : Nat) (a : Fin 2) (ha : a.val = o) (w : S2x16.Idx → α) (hs : S2x16.Slices ![o, 0] S1x16)
    (hd : S1x16.ShapeCasts S16) (hc : S16.ShapeCasts S1x16x1) (h : Fin 16) :
    shapeCast S1x16x1 (shapeCast S16 (extractStridedSlice S1x16 ![o, 0] w hs) hd) hc (ix3 (0 : Fin 1) h (0 : Fin 1))
      = w (ix2 a h) :=
  (cast_col_apply _ hc h).trans <| (shapeCast_1a_a_apply _ hd h).trans <|
    slice2_axis0_apply o w hs (0 : Fin 1) h a (by rw [ha]; rfl)

/-- The index of the lane sum: (r, h) with lane l inserted is (r, h, l). -/
theorem lift_eq (hr : S48x16x512.Reduces [2] S48x16) (r : Fin 48) (h : Fin 16) (l : Fin 512) :
    hr.lift (ix2 r h) l = ix3 r h l := by
  funext a
  match a with
  | ⟨0, _⟩ => exact Fin.ext rfl
  | ⟨1, _⟩ => exact Fin.ext rfl
  | ⟨2, _⟩ => exact Fin.ext rfl

end Layout

/-! ## The values the body reads before the cells, at an index -/

theorem pay3_apply (x : Vec Ideal S48x512 .f32) (r : Fin 48) (l : Fin 512) :
    k0_pay3 (F := Ideal) x (ix3 r (0 : Fin 1) l) = x (ix2 r l) := by
  unfold k0_pay3
  rw [shapeCast_self]
  exact cast_row_apply x _ r l

theorem pay4_apply (x : Vec Ideal S48x512 .f32) (r : Fin 48) (l : Fin 512) :
    k0_pay4 (F := Ideal) x (ix3 r (0 : Fin 1) l) = x (ix2 r l) := by
  unfold k0_pay4
  rw [shapeCast_self]
  exact cast_row_apply x _ r l

theorem pay5_apply (x5 : Vec Ideal S2x16 .f32) (h : Fin 16) :
    k0_pay5 (F := Ideal) x5 (ix3 (0 : Fin 1) h (0 : Fin 1)) = x5 (ix2 1 h) := by
  unfold k0_pay5
  exact row_col_apply 1 1 rfl x5 _ _ _ h

theorem pay6_apply (x6 x7 : Vec Ideal S16 .f32) (h : Fin 16) :
    k0_pay6 (F := Ideal) x6 x7 (ix3 (0 : Fin 1) h (0 : Fin 1)) = x6 (ix1 h) + x7 (ix1 h) := by
  unfold k0_pay6
  exact cast_col_apply _ _ h

theorem pay7_apply (x0 x1 : Vec Ideal S48x512 .f32) (x2 : Vec Ideal S2x16 .f32) (x3 x4 : Vec Ideal S16 .f32)
    (r : Fin 48) (h : Fin 16) (l : Fin 512) :
    k0_pay7 (F := Ideal) x0 x1 x2 x3 x4 (ix3 r h l)
      = x0 (ix2 r l) * x2 (ix2 0 h) + x1 (ix2 r l) * x2 (ix2 1 h) + (x3 (ix1 h) + x4 (ix1 h)) := by
  unfold k0_pay7
  show broadcastTo S48x16x512 (k0_pay3 x0) _ (ix3 r h l) * broadcastTo S48x16x512 _ _ (ix3 r h l)
      + broadcastTo S48x16x512 (k0_pay4 x1) _ (ix3 r h l) * broadcastTo S48x16x512 _ _ (ix3 r h l)
      + broadcastTo S48x16x512 _ _ (ix3 r h l) = _
  rw [bcast_row_apply, bcast_row_apply, bcast_col_apply, bcast_col_apply, bcast_col_apply, pay3_apply, pay4_apply,
    row_col_apply 0 0 rfl, row_col_apply 1 1 rfl, cast_col_apply]
  rfl

theorem pay8_apply (x0 : Vec Ideal S48x512 .f32) (x5 : Vec Ideal S2x16 .f32) (r : Fin 48) (h : Fin 16) (l : Fin 512) :
    k0_pay8 (F := Ideal) x0 x5 (ix3 r h l) = x0 (ix2 r l) * x5 (ix2 0 h) := by
  unfold k0_pay8
  show broadcastTo S48x16x512 (k0_pay3 x0) _ (ix3 r h l) * broadcastTo S48x16x512 _ _ (ix3 r h l) = _
  rw [bcast_row_apply, bcast_col_apply, pay3_apply, row_col_apply 0 0 rfl]

theorem pay9_apply (x1 : Vec Ideal S48x512 .f32) (r : Fin 48) (h : Fin 16) (l : Fin 512) :
    k0_pay9 (F := Ideal) x1 (ix3 r h l) = x1 (ix2 r l) := by
  unfold k0_pay9
  show broadcastTo S48x16x512 (k0_pay4 x1) _ (ix3 r h l) = _
  rw [bcast_row_apply, pay4_apply]

/-! ## The body's arithmetic at an entry -/

/-- The store's payload over ANY values of the earlier payloads: the loaded accumulator plus the lane sum of
    (1 - logistic) * tanh times the converted column mask. -/
theorem pay1_apply (t : ℕ) (v26 v30 : FVec Ideal S1x16x1 .f32) (v39 v42 v43 : FVec Ideal S48x16x512 .f32)
    (v65 : Vec Ideal S48x16 .f32) (r : Fin 48) (h : Fin 16) :
    k0_pay1 (F := Ideal) (BitVec.ofNat 32 t) v26 v30 v39 v42 v43 v65 (ix2 r h)
      = v65 (ix2 r h) + ∑ l : Fin 512,
          (Cert.Sweep.one - Ideal.logistic (v39 (ix3 r h l)))
            * Ideal.tanh (v42 (ix3 r h l) + v43 (ix3 r h l) * v26 (ix3 (0 : Fin 1) h (0 : Fin 1)) + v30 (ix3 (0 : Fin 1) h (0 : Fin 1)))
            * FloatOps.sitofp (F := Ideal) .f32 (Cert.Sweep.maskBits t l.val) := by
  unfold k0_pay1
  rw [shapeCast_self]
  refine congrArg (v65 (ix2 r h) + ·) ?_
  refine (Ideal.multiReduction_add_single _ _ _ _ _ (ix2 r h)).trans ?_
  refine Finset.sum_congr rfl fun (l : Fin 512) _ => ?_
  rw [lift_eq reduces_S48x16x512_S48x16 r h l]
  show (Cert.Sweep.one - Ideal.logistic (v39 (ix3 r h l)))
        * Ideal.tanh (v42 (ix3 r h l) + v43 (ix3 r h l) * broadcastTo S48x16x512 v26 _ (ix3 r h l)
            + broadcastTo S48x16x512 v30 _ (ix3 r h l))
        * broadcastTo S48x16x512 _ _ (ix3 r h l) = _
  rw [bcast_col_apply, bcast_col_apply, bcast_lane_apply]
  congr 1
  show FloatOps.sitofp (F := Ideal) .f32 ((IntOp.cmpi .slt (IntOp.addi (IntOp.muli (BitVec.ofNat 32 t) 512#32)
        (iota .tc S1x1x512 32 [2] iota_S1x1x512_d2_w32 (ix3 (0 : Fin 1) (0 : Fin 1) l))) 50000#32).setWidth 32) = _
  rw [iota_single_apply]
  rfl

theorem step_apply (i : grid0.Coords) (x0 : Vec Ideal S48x512 .f32) (x1 : Vec Ideal S48x512 .f32) (x2 : Vec Ideal S2x16 .f32) (x3 : Vec Ideal S16 .f32) (x4 : Vec Ideal S16 .f32) (x5 : Vec Ideal S2x16 .f32) (x6 : Vec Ideal S16 .f32) (x7 : Vec Ideal S16 .f32) (acc : Vec Ideal S48x16 .f32) (r : Fin 48) (h : Fin 16) :
    step (F := Ideal) i x0 x1 x2 x3 x4 x5 x6 x7 acc (ix2 r h)
      = acc (ix2 r h) + ∑ l : Fin 512,
          Cert.Sweep.cellK (x0 (ix2 r l)) (x1 (ix2 r l)) (x2 (ix2 0 h)) (x2 (ix2 1 h)) (x3 (ix1 h)) (x4 (ix1 h))
              (x5 (ix2 0 h)) (x5 (ix2 1 h)) (x6 (ix1 h)) (x7 (ix1 h))
            * (if 512 * (i 0).val + l.val < 50000 then (1 : EReal) else 0) := by
  unfold step
  rw [pay1_apply]
  refine congrArg (acc (ix2 r h) + ·) ?_
  refine Finset.sum_congr rfl fun l _ => ?_
  rw [pay5_apply, pay6_apply, pay7_apply, pay8_apply, pay9_apply,
    Cert.Sweep.mask_val (i 0).val l.val (show (i 0).val < 98 from (i 0).isLt) l.isLt]
  rfl

theorem zeroAcc_apply (j : S48x16.Idx) : (zeroAcc (F := Ideal)) j = 0 := by
  unfold zeroAcc k0_pay2
  rw [shapeCast_self]
  exact Ideal.ofBits_zero_f32

end Cert.KernelIdeal.Pool

end
-- ==== Proof.Blocks.lean ====
/-
  What the windows hand the body at a grid point, and the row sum the region leaves.

  Window 0 and window 1 step along the columns of the two padded 48 x 50176 feature arrays, 512 columns a point: lane l
  of the block at point t is column 512 * t + l.  Windows 2 … 7 hold the whole weight and bias arrays at every point.
  With the per-point step read at an entry, the accumulator after the last point is, at (r, h), the sum over the 98
  points and the 512 lanes of the masked cells of row r at column 512 * t + l.
-/
import proofs.«132057_j9809705304183_1_alg».proof.Proof.Accum
import proofs.«132057_j9809705304183_1_alg».proof.Proof.StepAt
import Idealize.ShloMosaic.Lib.ValueIdx
import Idealize.ShloMosaic.Lib.Pipeline.Value

noncomputable section

namespace Cert.KernelIdeal.Pool

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The grid is one axis of 98 points: a point's coordinate is its number. -/
theorem coords_val (t : Fin cfg0.N) : (grid0.coords t 0).val = t.val :=
  (by decide +kernel : ∀ t : Fin grid0.N, (grid0.coords t 0).val = t.val) t

theorem tval_lt (t : Fin cfg0.N) : t.val < 98 := lt_of_lt_of_eq t.isLt (show cfg0.N = 98 from N_0)

/-- The column of lane l at point t, inside the padded width. -/
abbrev colAt (t : Fin cfg0.N) (l : Fin 512) : Fin 50176 :=
  ⟨512 * t.val + l.val, by have := tval_lt t; have := l.isLt; omega⟩

/-- The index maps of the two feature windows: block row 0, block column the point's number. -/
theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = t.val :=
  (by decide +kernel : ∀ t : Fin grid0.N, win0_1.index t 0 = 0 ∧ win0_1.index t 1 = t.val)

/-- The padded feature block at point t: row r, lane l is column 512 * t + l of the padded array. -/
theorem iblk0_apply (c : Dev nD) (t : Fin cfg0.N) (r : Fin 48) (l : Fin 512) :
    (iblk m c 0 t : Vec Ideal S48x512 .f32) (ix2 r l) = V m c main_v58 (ix2 r (colAt t l)) := by
  have hi := index0 t
  unfold iblk
  rw [View.read_apply]
  show V m c main_v58 _ = V m c main_v58 _
  congr 1
  funext a
  apply Fin.ext
  match a with
  | ⟨0, _⟩ => show win0_0.index t 0 * 48 + 1 * r.val = r.val; rw [hi.1]; omega
  | ⟨1, _⟩ => show win0_0.index t 1 * 512 + 1 * l.val = 512 * t.val + l.val; rw [hi.2]; omega

theorem iblk1_apply (c : Dev nD) (t : Fin cfg0.N) (r : Fin 48) (l : Fin 512) :
    (iblk m c 1 t : Vec Ideal S48x512 .f32) (ix2 r l) = V m c main_v59 (ix2 r (colAt t l)) := by
  have hi := index1 t
  unfold iblk
  rw [View.read_apply]
  show V m c main_v59 _ = V m c main_v59 _
  congr 1
  funext a
  apply Fin.ext
  match a with
  | ⟨0, _⟩ => show win0_1.index t 0 * 48 + 1 * r.val = r.val; rw [hi.1]; omega
  | ⟨1, _⟩ => show win0_1.index t 1 * 512 + 1 * l.val = 512 * t.val + l.val; rw [hi.2]; omega

/-- The weight and bias windows hold their whole arrays, as launched, at every point. -/
theorem iblk2_eq (c : Dev nD) (t : Fin cfg0.N) : (iblk m c 2 t : Vec Ideal S2x16 .f32) = m ((c : Thread nD τ).loc main_arg2) := by
  have hi : ∀ t : Fin cfg0.N, win0_2.index t 0 = 0 ∧ win0_2.index t 1 = 0 :=
    (by decide +kernel : ∀ t : Fin grid0.N, win0_2.index t 0 = 0 ∧ win0_2.index t 1 = 0)
  funext j
  refine Eq.trans ?_ (congrFun (V_main_arg2 m c) j)
  unfold iblk
  rw [View.read_apply]
  show V m c main_arg2 _ = V m c main_arg2 _
  congr 1
  funext a
  apply Fin.ext
  match a with
  | ⟨0, _⟩ => show win0_2.index t 0 * 2 + 1 * (j 0).val = (j 0).val; rw [(hi t).1]; omega
  | ⟨1, _⟩ => show win0_2.index t 1 * 16 + 1 * (j 1).val = (j 1).val; rw [(hi t).2]; omega
theorem iblk3_eq (c : Dev nD) (t : Fin cfg0.N) : (iblk m c 3 t : Vec Ideal S16 .f32) = m ((c : Thread nD τ).loc main_arg3) := by
  have hi : ∀ t : Fin cfg0.N, win0_3.index t 0 = 0 :=
    (by decide +kernel : ∀ t : Fin grid0.N, win0_3.index t 0 = 0)
  funext j
  refine Eq.trans ?_ (congrFun (V_main_arg3 m c) j)
  unfold iblk
  rw [View.read_apply]
  show V m c main_arg3 _ = V m c main_arg3 _
  congr 1
  funext a
  apply Fin.ext
  match a with
  | ⟨0, _⟩ => show win0_3.index t 0 * 16 + 1 * (j 0).val = (j 0).val; rw [hi t]; omega
theorem iblk4_eq (c : Dev nD) (t : Fin cfg0.N) : (iblk m c 4 t : Vec Ideal S16 .f32) = m ((c : Thread nD τ).loc main_arg4) := by
  have hi : ∀ t : Fin cfg0.N, win0_4.index t 0 = 0 :=
    (by decide +kernel : ∀ t : Fin grid0.N, win0_4.index t 0 = 0)
  funext j
  refine Eq.trans ?_ (congrFun (V_main_arg4 m c) j)
  unfold iblk
  rw [View.read_apply]
  show V m c main_arg4 _ = V m c main_arg4 _
  congr 1
  funext a
  apply Fin.ext
  match a with
  | ⟨0, _⟩ => show win0_4.index t 0 * 16 + 1 * (j 0).val = (j 0).val; rw [hi t]; omega
theorem iblk5_eq (c : Dev nD) (t : Fin cfg0.N) : (iblk m c 5 t : Vec Ideal S2x16 .f32) = m ((c : Thread nD τ).loc main_arg5) := by
  have hi : ∀ t : Fin cfg0.N, win0_5.index t 0 = 0 ∧ win0_5.index t 1 = 0 :=
    (by decide +kernel : ∀ t : Fin grid0.N, win0_5.index t 0 = 0 ∧ win0_5.index t 1 = 0)
  funext j
  refine Eq.trans ?_ (congrFun (V_main_arg5 m c) j)
  unfold iblk
  rw [View.read_apply]
  show V m c main_arg5 _ = V m c main_arg5 _
  congr 1
  funext a
  apply Fin.ext
  match a with
  | ⟨0, _⟩ => show win0_5.index t 0 * 2 + 1 * (j 0).val = (j 0).val; rw [(hi t).1]; omega
  | ⟨1, _⟩ => show win0_5.index t 1 * 16 + 1 * (j 1).val = (j 1).val; rw [(hi t).2]; omega
theorem iblk6_eq (c : Dev nD) (t : Fin cfg0.N) : (iblk m c 6 t : Vec Ideal S16 .f32) = m ((c : Thread nD τ).loc main_arg6) := by
  have hi : ∀ t : Fin cfg0.N, win0_6.index t 0 = 0 :=
    (by decide +kernel : ∀ t : Fin grid0.N, win0_6.index t 0 = 0)
  funext j
  refine Eq.trans ?_ (congrFun (V_main_arg6 m c) j)
  unfold iblk
  rw [View.read_apply]
  show V m c main_arg6 _ = V m c main_arg6 _
  congr 1
  funext a
  apply Fin.ext
  match a with
  | ⟨0, _⟩ => show win0_6.index t 0 * 16 + 1 * (j 0).val = (j 0).val; rw [hi t]; omega
theorem iblk7_eq (c : Dev nD) (t : Fin cfg0.N) : (iblk m c 7 t : Vec Ideal S16 .f32) = m ((c : Thread nD τ).loc main_arg7) := by
  have hi : ∀ t : Fin cfg0.N, win0_7.index t 0 = 0 :=
    (by decide +kernel : ∀ t : Fin grid0.N, win0_7.index t 0 = 0)
  funext j
  refine Eq.trans ?_ (congrFun (V_main_arg7 m c) j)
  unfold iblk
  rw [View.read_apply]
  show V m c main_arg7 _ = V m c main_arg7 _
  congr 1
  funext a
  apply Fin.ext
  match a with
  | ⟨0, _⟩ => show win0_7.index t 0 * 16 + 1 * (j 0).val = (j 0).val; rw [hi t]; omega

/-- The masked cell of row r, gate column h, at the column of lane l of point t. -/
def term (c : Dev nD) (r : Fin 48) (h : Fin 16) (t : Fin cfg0.N) (l : Fin 512) : EReal :=
  Cert.Sweep.cellK (V m c main_v58 (ix2 r (colAt t l))) (V m c main_v59 (ix2 r (colAt t l)))
      (m ((c : Thread nD τ).loc main_arg2) (ix2 0 h)) (m ((c : Thread nD τ).loc main_arg2) (ix2 1 h))
      (m ((c : Thread nD τ).loc main_arg3) (ix1 h)) (m ((c : Thread nD τ).loc main_arg4) (ix1 h))
      (m ((c : Thread nD τ).loc main_arg5) (ix2 0 h)) (m ((c : Thread nD τ).loc main_arg5) (ix2 1 h))
      (m ((c : Thread nD τ).loc main_arg6) (ix1 h)) (m ((c : Thread nD τ).loc main_arg7) (ix1 h))
    * (if 512 * t.val + l.val < 50000 then (1 : EReal) else 0)

/-- One point's step at an entry: the accumulator there plus the lane sum of that point's masked cells. -/
theorem step_iblk (c : Dev nD) (t : Fin cfg0.N) (acc : Vec Ideal S48x16 .f32) (r : Fin 48) (h : Fin 16) :
    step (F := Ideal) (grid0.coords t) (iblk m c 0 t) (iblk m c 1 t) (iblk m c 2 t) (iblk m c 3 t) (iblk m c 4 t)
        (iblk m c 5 t) (iblk m c 6 t) (iblk m c 7 t) acc (ix2 r h)
      = acc (ix2 r h) + ∑ l : Fin 512, term m c r h t l := by
  refine (step_apply (grid0.coords t) (iblk m c 0 t) (iblk m c 1 t) (iblk m c 2 t) (iblk m c 3 t) (iblk m c 4 t)
    (iblk m c 5 t) (iblk m c 6 t) (iblk m c 7 t) acc r h).trans ?_
  refine congrArg (acc (ix2 r h) + ·) (Finset.sum_congr rfl fun l _ => ?_)
  unfold term
  rw [iblk0_apply, iblk1_apply, iblk2_eq, iblk3_eq, iblk4_eq, iblk5_eq, iblk6_eq, iblk7_eq, coords_val]

/-- The accumulator after point n, at an entry: the sum over the points up to n of the lane sums of the masked cells. -/
theorem accAt_apply (c : Dev nD) (r : Fin 48) (h : Fin 16) : ∀ (n : ℕ) (hn : n < cfg0.N),
    accAt m c n hn (ix2 r h) = ∑ s ∈ Finset.range (n + 1), (if hs : s < cfg0.N then ∑ l : Fin 512, term m c r h ⟨s, hs⟩ l else 0)
  | 0, hn => by
    refine (step_iblk m c ⟨0, hn⟩ zeroAcc r h).trans ?_
    rw [zeroAcc_apply, zero_add, Finset.sum_range_one, dif_pos hn]
  | n + 1, hn => by
    refine (step_iblk m c ⟨n + 1, hn⟩ (accAt m c n (Nat.lt_of_succ_lt hn)) r h).trans ?_
    rw [accAt_apply c r h n (Nat.lt_of_succ_lt hn), Finset.sum_range_succ _ (n + 1), dif_pos hn]

/-- What the region leaves at (r, h): the sum over all 98 points and 512 lanes. -/
theorem poolSum_apply (c : Dev nD) (r : Fin 48) (h : Fin 16) :
    poolSum m c (ix2 r h) = ∑ t : Fin cfg0.N, ∑ l : Fin 512, term m c r h t l := by
  have hN : 97 + 1 = cfg0.N := (show cfg0.N = 98 from N_0).symm
  refine (accAt_apply m c r h 97 lastLt).trans ?_
  rw [hN]
  exact (Finset.sum_fin_eq_sum_range (fun t : Fin cfg0.N => ∑ l : Fin 512, term m c r h t l)).symm

end Cert.KernelIdeal.Pool

end
-- ==== Proof.RefCell.lean ====
/-
  The reference's sweep, read at an entry, at the extended reals.

  Element (b, t, n, h) of the reference's gated product is one cell: of the feature x[b, t, n] and the graph-Laplacian
  feature lx[b, t, n], and of gate column h's weights and biases, the biases added one after the other and the sigmoid
  spelt 1 / (1 + exp(-u)).  Every operation on the way is a broadcast along new axes or pointwise.  The node sum then
  reads, at (b, t, h), as the zero it starts from plus the sum of those cells over the 50000 nodes.
-/
import proofs.«132057_j9809705304183_1_alg».proof.Proof.RefRead
import proofs.«132057_j9809705304183_1_alg».proof.Proof.Sweep
import Idealize.ShloMosaic.Lib.ValueIdx
import Idealize.ShloMosaic.Lib.IdealHost

noncomputable section

namespace Cert.ReferenceIdeal.Pool

open Idealize.ShloMosaic Idealize.ShloMosaic.ValueIdx
open Cert.ReferenceIdeal Cert.ReferenceIdeal.ReadP

/-! The index maps of the broadcasts, slices and reshapes, composed at the entry (b, t, n, h). -/

/-- The feature's two broadcasts read the entry (b, t, n). -/
theorem idx_x_z (b : Fin 8) (t : Fin 6) (n : Fin 50000) (h : Fin 16) :
    idx_main_v56 (idx_main_v60 (ix4 b t n h)) = ix3 b t n := funext fun a => Fin.ext (by match a with | ⟨0, _⟩ => rfl | ⟨1, _⟩ => rfl | ⟨2, _⟩ => rfl)
theorem idx_lx_z (b : Fin 8) (t : Fin 6) (n : Fin 50000) (h : Fin 16) :
    idx_main_v63 (idx_main_v67 (ix4 b t n h)) = ix3 b t n := funext fun a => Fin.ext (by match a with | ⟨0, _⟩ => rfl | ⟨1, _⟩ => rfl | ⟨2, _⟩ => rfl)
theorem idx_x_h (b : Fin 8) (t : Fin 6) (n : Fin 50000) (h : Fin 16) :
    idx_main_v83 (idx_main_v87 (ix4 b t n h)) = ix3 b t n := funext fun a => Fin.ext (by match a with | ⟨0, _⟩ => rfl | ⟨1, _⟩ => rfl | ⟨2, _⟩ => rfl)
theorem idx_lx_h (b : Fin 8) (t : Fin 6) (n : Fin 50000) (h : Fin 16) :
    idx_main_v90 (idx_main_v94 (ix4 b t n h)) = ix3 b t n := funext fun a => Fin.ext (by match a with | ⟨0, _⟩ => rfl | ⟨1, _⟩ => rfl | ⟨2, _⟩ => rfl)

/-- A weight row, sliced, flattened and broadcast, reads the entry (row, h) of the weights. -/
theorem idx_wz0 (b : Fin 8) (t : Fin 6) (n : Fin 50000) (h : Fin 16) :
    idx_main_v57 (idx_main_v58 (idx_main_v59 (idx_main_v61 (ix4 b t n h)))) = ix2 (0 : Fin 2) h := funext fun a => Fin.ext (by match a with | ⟨0, _⟩ => rfl | ⟨1, _⟩ => exact Nat.mod_eq_of_lt h.isLt)
theorem idx_wz1 (b : Fin 8) (t : Fin 6) (n : Fin 50000) (h : Fin 16) :
    idx_main_v64 (idx_main_v65 (idx_main_v66 (idx_main_v68 (ix4 b t n h)))) = ix2 (1 : Fin 2) h := funext fun a => Fin.ext (by match a with | ⟨0, _⟩ => rfl | ⟨1, _⟩ => exact Nat.mod_eq_of_lt h.isLt)
theorem idx_wh0 (b : Fin 8) (t : Fin 6) (n : Fin 50000) (h : Fin 16) :
    idx_main_v84 (idx_main_v85 (idx_main_v86 (idx_main_v88 (ix4 b t n h)))) = ix2 (0 : Fin 2) h := funext fun a => Fin.ext (by match a with | ⟨0, _⟩ => rfl | ⟨1, _⟩ => exact Nat.mod_eq_of_lt h.isLt)
theorem idx_wh1 (b : Fin 8) (t : Fin 6) (n : Fin 50000) (h : Fin 16) :
    idx_main_v91 (idx_main_v92 (idx_main_v93 (idx_main_v95 (ix4 b t n h)))) = ix2 (1 : Fin 2) h := funext fun a => Fin.ext (by match a with | ⟨0, _⟩ => rfl | ⟨1, _⟩ => exact Nat.mod_eq_of_lt h.isLt)

/-- A bias, broadcast twice, reads its entry h. -/
theorem idx_bz0 (b : Fin 8) (t : Fin 6) (n : Fin 50000) (h : Fin 16) :
    idx_main_v71 (idx_main_v72 (ix4 b t n h)) = ix1 h := funext fun a => Fin.ext (by match a with | ⟨0, _⟩ => rfl)
theorem idx_bz1 (b : Fin 8) (t : Fin 6) (n : Fin 50000) (h : Fin 16) :
    idx_main_v74 (idx_main_v75 (ix4 b t n h)) = ix1 h := funext fun a => Fin.ext (by match a with | ⟨0, _⟩ => rfl)
theorem idx_bh0 (b : Fin 8) (t : Fin 6) (n : Fin 50000) (h : Fin 16) :
    idx_main_v98 (idx_main_v99 (ix4 b t n h)) = ix1 h := funext fun a => Fin.ext (by match a with | ⟨0, _⟩ => rfl)
theorem idx_bh1 (b : Fin 8) (t : Fin 6) (n : Fin 50000) (h : Fin 16) :
    idx_main_v101 (idx_main_v102 (ix4 b t n h)) = ix1 h := funext fun a => Fin.ext (by match a with | ⟨0, _⟩ => rfl)

/-- The node sum's operand index at (b, t, h) and node k is the entry (b, t, k, h). -/
theorem idx_sum (b : Fin 8) (t : Fin 6) (h : Fin 16) (k : Fin 50000) :
    idx_main_v108 (ix3 b t h) k = ix4 b t k h :=
  funext fun a => Fin.ext (by match a with | ⟨0, _⟩ => rfl | ⟨1, _⟩ => rfl | ⟨2, _⟩ => rfl | ⟨3, _⟩ => rfl)

/-! The arithmetic of a cell in two named pieces, so that each stage of the program is stated once. -/

/-- A gate's pre-activation: the two features against the gate's two weight rows, then the two biases in turn. -/
def pre (a l w0 w1 c0 c1 : EReal) : EReal := a * w0 + l * w1 + c0 + c1

/-- One minus the sigmoid of u, the sigmoid spelt 1 / (1 + exp(-u)). -/
def zc (u : EReal) : EReal :=
  Cert.Sweep.one - Ideal.div Cert.Sweep.one (Cert.Sweep.one + Ideal.exp (-u))

/-- The reference's cell is the product of those pieces. -/
theorem cellR_eq (a l wz0 wz1 bz0 bz1 wh0 wh1 bh0 bh1 : EReal) :
    Cert.Sweep.cellR a l wz0 wz1 bz0 bz1 wh0 wh1 bh0 bh1
      = zc (pre a l wz0 wz1 bz0 bz1) * Ideal.tanh (pre a l wh0 wh1 bh0 bh1) := rfl

section Stages

variable (x0 : (⟨S8x6x50000x1, .f32⟩ : BufTy).Contents (Elt Ideal)) (x1 : (⟨S2x1600000, .i32⟩ : BufTy).Contents (Elt Ideal)) (x2 : (⟨S2x16, .f32⟩ : BufTy).Contents (Elt Ideal)) (x3 x4 : (⟨S16, .f32⟩ : BufTy).Contents (Elt Ideal)) (x5 : (⟨S2x16, .f32⟩ : BufTy).Contents (Elt Ideal)) (x6 x7 : (⟨S16, .f32⟩ : BufTy).Contents (Elt Ideal))
  (b : Fin 8) (t : Fin 6) (n : Fin 50000) (h : Fin 16)

/-! The leaves: each broadcast operand of the sweep read at (b, t, n, h). -/

theorem v60_at : val_main_v60 (F := Ideal) x0 (ix4 b t n h) = val_main_v4 (F := Ideal) x0 (ix3 b t n) := by
  rw [val_main_v60_apply, val_main_v56_apply, idx_x_z]
theorem v67_at : val_main_v67 (F := Ideal) x0 x1 (ix4 b t n h) = val_main_v55 (F := Ideal) x0 x1 (ix3 b t n) := by
  rw [val_main_v67_apply, val_main_v63_apply, idx_lx_z]
theorem v87_at : val_main_v87 (F := Ideal) x0 (ix4 b t n h) = val_main_v4 (F := Ideal) x0 (ix3 b t n) := by
  rw [val_main_v87_apply, val_main_v83_apply, idx_x_h]
theorem v94_at : val_main_v94 (F := Ideal) x0 x1 (ix4 b t n h) = val_main_v55 (F := Ideal) x0 x1 (ix3 b t n) := by
  rw [val_main_v94_apply, val_main_v90_apply, idx_lx_h]
theorem v61_at : val_main_v61 (F := Ideal) x2 (ix4 b t n h) = x2 (ix2 0 h) := by
  rw [val_main_v61_apply, val_main_v59_apply, val_main_v58_apply, val_main_v57_apply, idx_wz0]
theorem v68_at : val_main_v68 (F := Ideal) x2 (ix4 b t n h) = x2 (ix2 1 h) := by
  rw [val_main_v68_apply, val_main_v66_apply, val_main_v65_apply, val_main_v64_apply, idx_wz1]
theorem v88_at : val_main_v88 (F := Ideal) x5 (ix4 b t n h) = x5 (ix2 0 h) := by
  rw [val_main_v88_apply, val_main_v86_apply, val_main_v85_apply, val_main_v84_apply, idx_wh0]
theorem v95_at : val_main_v95 (F := Ideal) x5 (ix4 b t n h) = x5 (ix2 1 h) := by
  rw [val_main_v95_apply, val_main_v93_apply, val_main_v92_apply, val_main_v91_apply, idx_wh1]
theorem v72_at : val_main_v72 (F := Ideal) x3 (ix4 b t n h) = x3 (ix1 h) := by
  rw [val_main_v72_apply, val_main_v71_apply, idx_bz0]
theorem v75_at : val_main_v75 (F := Ideal) x4 (ix4 b t n h) = x4 (ix1 h) := by
  rw [val_main_v75_apply, val_main_v74_apply, idx_bz1]
theorem v99_at : val_main_v99 (F := Ideal) x6 (ix4 b t n h) = x6 (ix1 h) := by
  rw [val_main_v99_apply, val_main_v98_apply, idx_bh0]
theorem v102_at : val_main_v102 (F := Ideal) x7 (ix4 b t n h) = x7 (ix1 h) := by
  rw [val_main_v102_apply, val_main_v101_apply, idx_bh1]

/-! The two pre-activations. -/

theorem v76_at : val_main_v76 (F := Ideal) x0 x1 x2 x3 x4 (ix4 b t n h) = pre (val_main_v4 (F := Ideal) x0 (ix3 b t n)) (val_main_v55 (F := Ideal) x0 x1 (ix3 b t n)) (x2 (ix2 0 h)) (x2 (ix2 1 h)) (x3 (ix1 h)) (x4 (ix1 h)) := by
  rw [val_main_v76_apply, val_main_v73_apply, val_main_v70_apply, val_main_v62_apply, val_main_v69_apply,
    v60_at, v61_at, v67_at, v68_at, v72_at, v75_at]
  generalize val_main_v4 (F := Ideal) x0 (ix3 b t n) = a
  generalize val_main_v55 (F := Ideal) x0 x1 (ix3 b t n) = l
  rfl

theorem v103_at : val_main_v103 (F := Ideal) x0 x1 x5 x6 x7 (ix4 b t n h) = pre (val_main_v4 (F := Ideal) x0 (ix3 b t n)) (val_main_v55 (F := Ideal) x0 x1 (ix3 b t n)) (x5 (ix2 0 h)) (x5 (ix2 1 h)) (x6 (ix1 h)) (x7 (ix1 h)) := by
  rw [val_main_v103_apply, val_main_v100_apply, val_main_v97_apply, val_main_v89_apply, val_main_v96_apply,
    v87_at, v88_at, v94_at, v95_at, v99_at, v102_at]
  generalize val_main_v4 (F := Ideal) x0 (ix3 b t n) = a
  generalize val_main_v55 (F := Ideal) x0 x1 (ix3 b t n) = l
  rfl

/-! The two factors of the product. -/

theorem v106_at : val_main_v106 (F := Ideal) x0 x1 x2 x3 x4 (ix4 b t n h) = zc (pre (val_main_v4 (F := Ideal) x0 (ix3 b t n)) (val_main_v55 (F := Ideal) x0 x1 (ix3 b t n)) (x2 (ix2 0 h)) (x2 (ix2 1 h)) (x3 (ix1 h)) (x4 (ix1 h))) := by
  rw [val_main_v106_apply, val_main_v105_apply, val_main_cst_17_apply, val_main_v82_apply, val_main_v81_apply,
    val_main_cst_16_apply, val_main_v80_apply, val_main_v79_apply, val_main_cst_15_apply, val_main_v78_apply,
    val_main_v77_apply, v76_at]
  generalize pre (val_main_v4 (F := Ideal) x0 (ix3 b t n)) (val_main_v55 (F := Ideal) x0 x1 (ix3 b t n)) (x2 (ix2 0 h)) (x2 (ix2 1 h)) (x3 (ix1 h)) (x4 (ix1 h)) = u
  rfl

theorem v104_at : val_main_v104 (F := Ideal) x0 x1 x5 x6 x7 (ix4 b t n h) = Ideal.tanh (pre (val_main_v4 (F := Ideal) x0 (ix3 b t n)) (val_main_v55 (F := Ideal) x0 x1 (ix3 b t n)) (x5 (ix2 0 h)) (x5 (ix2 1 h)) (x6 (ix1 h)) (x7 (ix1 h))) := by
  rw [val_main_v104_apply, v103_at]
  generalize pre (val_main_v4 (F := Ideal) x0 (ix3 b t n)) (val_main_v55 (F := Ideal) x0 x1 (ix3 b t n)) (x5 (ix2 0 h)) (x5 (ix2 1 h)) (x6 (ix1 h)) (x7 (ix1 h)) = u
  rfl

end Stages

theorem v107_cell (x0 : (⟨S8x6x50000x1, .f32⟩ : BufTy).Contents (Elt Ideal)) (x1 : (⟨S2x1600000, .i32⟩ : BufTy).Contents (Elt Ideal)) (x2 : (⟨S2x16, .f32⟩ : BufTy).Contents (Elt Ideal)) (x3 x4 : (⟨S16, .f32⟩ : BufTy).Contents (Elt Ideal)) (x5 : (⟨S2x16, .f32⟩ : BufTy).Contents (Elt Ideal)) (x6 x7 : (⟨S16, .f32⟩ : BufTy).Contents (Elt Ideal)) (b : Fin 8) (t : Fin 6) (n : Fin 50000) (h : Fin 16) :
    val_main_v107 (F := Ideal) x0 x1 x2 x3 x4 x5 x6 x7 (ix4 b t n h) = Cert.Sweep.cellR (val_main_v4 (F := Ideal) x0 (ix3 b t n)) (val_main_v55 (F := Ideal) x0 x1 (ix3 b t n)) (x2 (ix2 0 h)) (x2 (ix2 1 h)) (x3 (ix1 h)) (x4 (ix1 h)) (x5 (ix2 0 h)) (x5 (ix2 1 h)) (x6 (ix1 h)) (x7 (ix1 h)) := by
  rw [val_main_v107_apply, v106_at, v104_at, cellR_eq]
  generalize zc (pre (val_main_v4 (F := Ideal) x0 (ix3 b t n)) (val_main_v55 (F := Ideal) x0 x1 (ix3 b t n)) (x2 (ix2 0 h)) (x2 (ix2 1 h)) (x3 (ix1 h)) (x4 (ix1 h))) = p
  generalize Ideal.tanh (pre (val_main_v4 (F := Ideal) x0 (ix3 b t n)) (val_main_v55 (F := Ideal) x0 x1 (ix3 b t n)) (x5 (ix2 0 h)) (x5 (ix2 1 h)) (x6 (ix1 h)) (x7 (ix1 h))) = q
  rfl

theorem v108_cell (x0 : (⟨S8x6x50000x1, .f32⟩ : BufTy).Contents (Elt Ideal)) (x1 : (⟨S2x1600000, .i32⟩ : BufTy).Contents (Elt Ideal)) (x2 : (⟨S2x16, .f32⟩ : BufTy).Contents (Elt Ideal)) (x3 x4 : (⟨S16, .f32⟩ : BufTy).Contents (Elt Ideal)) (x5 : (⟨S2x16, .f32⟩ : BufTy).Contents (Elt Ideal)) (x6 x7 : (⟨S16, .f32⟩ : BufTy).Contents (Elt Ideal)) (b : Fin 8) (t : Fin 6) (h : Fin 16) :
    val_main_v108 (F := Ideal) x0 x1 x2 x3 x4 x5 x6 x7 (ix3 b t h) = ∑ n : Fin 50000, Cert.Sweep.cellR (val_main_v4 (F := Ideal) x0 (ix3 b t n)) (val_main_v55 (F := Ideal) x0 x1 (ix3 b t n)) (x2 (ix2 0 h)) (x2 (ix2 1 h)) (x3 (ix1 h)) (x4 (ix1 h)) (x5 (ix2 0 h)) (x5 (ix2 1 h)) (x6 (ix1 h)) (x7 (ix1 h)) := by
  rw [val_main_v108_apply, val_main_cst_18_apply, Ideal.ofBits_def, Ideal.ofBits_zero_f32, zero_add]
  refine Finset.sum_congr rfl fun k _ => ?_
  rw [idx_sum, v107_cell]

end Cert.ReferenceIdeal.Pool

end
-- ==== Proof.HostSide.lean ====
/-
  The host lines before the region, read as values.

  Before the region @main flattens the feature array x[8,6,50000] and its graph-Laplacian feature lx[8,6,50000] (computed
  by scatter-adds over the edge list) to 48 rows and appends 176 zero columns to each: these two padded arrays are what
  windows 0 and 1 step along.  The reference computes x and lx by the very same host operations, so both are named here
  by the reference's own stage functions, applied to the kernel's arguments; inside the first 50000 columns a padded
  array reads the unpadded one, row 6 * b + t being (b, t).
-/
import proofs.«132057_j9809705304183_1_alg».proof.Proof.Gen.KernelIdeal.Frame
import proofs.«132057_j9809705304183_1_alg».proof.Proof.RefRead
import Idealize.ShloMosaic.Lib.StableHlo.Run
import Idealize.ShloMosaic.Lib.KernelVsHost
import Idealize.ShloMosaic.Lib.ValueIdx
import Idealize.ShloMosaic.Lib.Pipeline.Value

noncomputable section

namespace Cert.KernelIdeal.Pool

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]
variable (m : (ℓ : Loc nD τ sig) → Buf (Elt F) ℓ)

/-- An [8,6,50000] array as the region takes it: the 48 rows (b, t) in order, 176 zero columns appended. -/
def padded (y : (⟨S8x6x50000, .f32⟩ : BufTy).Contents (Elt F)) : (⟨S48x50176, .f32⟩ : BufTy).Contents (Elt F) :=
  pad S48x50176 ![0, 0] ![0, 176] ![0, 0] (shapeCast S48x50000 y shapeCasts_S8x6x50000_S48x50000)
    (sitofp .f32 (constantI S_ 32 0#32)) pads_S48x50000_S48x50176_000_01760 h_S_

/-- Inside the first 50000 columns, row 6 * b + t of the padded array is row (b, t) of the array. -/
theorem padded_apply (y : (⟨S8x6x50000, .f32⟩ : BufTy).Contents (Elt F)) (b : Fin 8) (t : Fin 6) (n : Fin 50000) :
    padded y (ix2 (⟨6 * b.val + t.val, by have := b.isLt; have := t.isLt; omega⟩ : Fin 48) (⟨n.val, by have := n.isLt; omega⟩ : Fin 50176))
      = y (ix3 b t n) := by
  unfold padded
  refine (pad_apply_of_inside ![0, 0] ![0, 176] ![0, 0] _ _ pads_S48x50000_S48x50176_000_01760 h_S_ _
    (ix2 (⟨6 * b.val + t.val, by have := b.isLt; have := t.isLt; omega⟩ : Fin 48) n) (fun a => ?_)).trans ?_
  · match a with
    | ⟨0, _⟩ => show 6 * b.val + t.val = 0 + (6 * b.val + t.val) * (0 + 1); omega
    | ⟨1, _⟩ => show n.val = 0 + n.val * (0 + 1); omega
  · exact shapeCast_apply y shapeCasts_S8x6x50000_S48x50000 _ (ix3 b t n) (by
      rw [Shape.rowMajor_val_three, Shape.rowMajor_val_two]
      show (b.val * 6 + t.val) * 50000 + n.val = (6 * b.val + t.val) * 50000 + n.val
      omega)

set_option maxHeartbeats 40000000 in
/-- Window 0's array: the padded feature array, the features named by the reference's own reshape of x. -/
theorem V58_eq (c : Dev nD) :
    V m c main_v58 = padded (Cert.ReferenceIdeal.ReadP.val_main_v4 (F := F) (m ((c : Thread nD τ).loc main_arg0))) := by
  dsimp only [V, V0]
  simp only [hostOps0, hostOps0_1, hostOps0_2, hostOps0_3, hostOps0_4, hostOps0_5, List.flatten_cons, List.flatten_nil,
    List.append_nil, List.cons_append, List.nil_append]
  after_results_simp
  rfl

set_option maxHeartbeats 40000000 in
/-- Window 1's array: the padded graph-Laplacian feature, named by the reference's own stage for it. -/
theorem V59_eq (c : Dev nD) :
    V m c main_v59 = padded (Cert.ReferenceIdeal.ReadP.val_main_v55 (F := F) (m ((c : Thread nD τ).loc main_arg0))
      (m ((c : Thread nD τ).loc main_arg1))) := by
  dsimp only [V, V0]
  simp only [hostOps0, hostOps0_1, hostOps0_2, hostOps0_3, hostOps0_4, hostOps0_5, List.flatten_cons, List.flatten_nil,
    List.append_nil, List.cons_append, List.nil_append]
  after_results_simp
  rfl

end Cert.KernelIdeal.Pool

end
-- ==== Proof.Join.lean ====
/-
  The two programs compute one function.

  What the kernel's region leaves at row 6 * b + t, gate column h — the sum over 98 tiles of 512 lanes of the masked
  cells — is the reference's node sum at (b, t, h): the mask keeps exactly the first 50000 columns, inside them the padded
  arrays read the features the reference reads, and a kernel cell is a reference cell (`poolSum_eq`).  Dividing by 50000
  and regrouping the rows gives the reference's means (`means_eq`), and from the means on both programs apply the same
  read-out head (`ref_head`).
-/
import proofs.«132057_j9809705304183_1_alg».proof.Proof.Blocks
import proofs.«132057_j9809705304183_1_alg».proof.Proof.RefCell
import proofs.«132057_j9809705304183_1_alg».proof.Proof.HostSide
import proofs.«132057_j9809705304183_1_alg».proof.Proof.HostTail
import proofs.«132057_j9809705304183_1_alg».proof.Proof.Sweep

noncomputable section

namespace Cert.KernelIdeal.Pool

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Row 6 * b + t of the 48 flattened rows. -/
abbrev rowOf (b : Fin 8) (t : Fin 6) : Fin 48 := ⟨6 * b.val + t.val, by have := b.isLt; have := t.isLt; omega⟩

/-- The region's row sums are the reference's node sums. -/
theorem poolSum_eq (c : Dev nD) (b : Fin 8) (t : Fin 6) (h : Fin 16) :
    poolSum m c (ix2 (rowOf b t) h)
      = Cert.ReferenceIdeal.ReadP.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b t h) := by
  rw [poolSum_apply, Cert.ReferenceIdeal.Pool.v108_cell]
  -- the masked cell of row (b, t), gate column h, as a function of the padded column
  let gp : Fin 50176 → EReal := fun n =>
    Cert.Sweep.cellK (V m c main_v58 (ix2 (rowOf b t) n)) (V m c main_v59 (ix2 (rowOf b t) n))
      ((m ((c : Thread nD τ).loc main_arg2)) (ix2 0 h)) ((m ((c : Thread nD τ).loc main_arg2)) (ix2 1 h)) ((m ((c : Thread nD τ).loc main_arg3)) (ix1 h)) ((m ((c : Thread nD τ).loc main_arg4)) (ix1 h))
      ((m ((c : Thread nD τ).loc main_arg5)) (ix2 0 h)) ((m ((c : Thread nD τ).loc main_arg5)) (ix2 1 h)) ((m ((c : Thread nD τ).loc main_arg6)) (ix1 h)) ((m ((c : Thread nD τ).loc main_arg7)) (ix1 h))
  have hN : cfg0.N = 98 := N_0
  have e : (∑ s : Fin cfg0.N, ∑ l : Fin 512, term m c (rowOf b t) h s l)
      = ∑ s : Fin 98, ∑ l : Fin 512, gp ⟨512 * s.val + l.val, Cert.Sweep.col_lt s l⟩
          * (if 512 * s.val + l.val < 50000 then (1 : EReal) else 0) :=
    Fintype.sum_equiv (finCongr hN) _ _ (fun s => rfl)
  rw [e]
  refine Cert.Sweep.tiled_masked_sum gp _ (fun n hn => ?_)
  show Cert.Sweep.cellK (V m c main_v58 (ix2 (rowOf b t) ⟨n, _⟩)) (V m c main_v59 (ix2 (rowOf b t) ⟨n, _⟩)) _ _ _ _ _ _ _ _ = _
  rw [V58_eq, V59_eq, padded_apply _ b t ⟨n, hn⟩, padded_apply _ b t ⟨n, hn⟩, Cert.Sweep.cellK_eq_cellR]

/-- The kernel's means are the reference's. -/
theorem means_eq (c : Dev nD) :
    meansOf (poolSum m c)
      = Host.divf (F := Ideal) (s := S8x6x16) (φ := .f32) (Cert.ReferenceIdeal.ReadP.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          (Cert.ReferenceIdeal.ReadP.val_main_v109 (F := Ideal)) := by
  funext i
  obtain ⟨b, t, h, rfl⟩ : ∃ (b : Fin 8) (t : Fin 6) (h : Fin 16), i = ix3 b t h := ⟨i 0, i 1, i 2, eq_ix3 i⟩
  unfold meansOf
  refine (shapeCast_apply _ shapeCasts_S48x16_S8x6x16 (ix3 b t h) (ix2 (rowOf b t) h) (by
    rw [Shape.rowMajor_val_three, Shape.rowMajor_val_two]
    show (6 * b.val + t.val) * 16 + h.val = (b.val * 6 + t.val) * 16 + h.val
    omega)).trans ?_
  unfold Host.divf
  rw [poolSum_eq m c b t h]
  rfl

/-- From the means on, the reference applies the kernel program's read-out head. -/
theorem ref_head (x0 : (⟨S8x6x50000x1, .f32⟩ : BufTy).Contents (Elt Ideal)) (x1 : (⟨S2x1600000, .i32⟩ : BufTy).Contents (Elt Ideal))
    (x2 : (⟨S2x16, .f32⟩ : BufTy).Contents (Elt Ideal)) (x3 x4 : (⟨S16, .f32⟩ : BufTy).Contents (Elt Ideal))
    (x5 : (⟨S2x16, .f32⟩ : BufTy).Contents (Elt Ideal)) (x6 x7 : (⟨S16, .f32⟩ : BufTy).Contents (Elt Ideal))
    (x8 : (⟨S1x16, .f32⟩ : BufTy).Contents (Elt Ideal)) (x9 : (⟨S1, .f32⟩ : BufTy).Contents (Elt Ideal)) :
    Cert.ReferenceIdeal.ReadP.val_main_v118 (F := Ideal) x0 x1 x2 x3 x4 x5 x6 x7 x8 x9
      = headOf (Host.divf (F := Ideal) (s := S8x6x16) (φ := .f32) (Cert.ReferenceIdeal.ReadP.val_main_v108 (F := Ideal) x0 x1 x2 x3 x4 x5 x6 x7)
          (Cert.ReferenceIdeal.ReadP.val_main_v109 (F := Ideal))) x8 x9 := rfl

end Cert.KernelIdeal.Pool

end
-- ==== Proof.lean ====
/-
  The certificate of the pooled graph-GRU sweep: a Pallas kernel that streams the 50000 nodes in 98 tiles of 512 lanes
  and accumulates, per (batch, time) row and gate column, the sum of the gated cells (1 - sigma(u)) * tanh(v) under a
  column mask, against the jnp reference that materialises the [8,6,50000,16] cells and takes their mean over the nodes.

  Over the extended reals the two programs are one function.  Both compute the degree-normalised graph-Laplacian
  feature by the same host scatter-adds; a kernel cell (biases added first, sigmoid as one operation) is a reference
  cell (biases added in turn, sigmoid as 1 / (1 + exp(-u))) because addition is associative and the sigmoid IS that
  quotient; the mask is 1 on the first 50000 columns and 0 on the 176 padding columns, a product with 0 is 0, and a
  finite sum may be regrouped; and from the sums on both apply the same division by 50000, the same selection of the last
  time step, relu, and the same read-out.  No finiteness of the inputs is used.

  The three frames: the kernel's two by the generated frame certificates; the reference's by its run.  The ideal pass
  rewrote nothing, so the kernel's idealization is its own text.
-/
import proofs.«132057_j9809705304183_1_alg».proof.Defs
import proofs.«132057_j9809705304183_1_alg».proof.Proof.Gen.Kernel
import proofs.«132057_j9809705304183_1_alg».proof.Proof.Gen.Kernel.Frame
import proofs.«132057_j9809705304183_1_alg».proof.Proof.Gen.KernelIdeal
import proofs.«132057_j9809705304183_1_alg».proof.Proof.Gen.KernelIdeal.Frame
import proofs.«132057_j9809705304183_1_alg».proof.Proof.Gen.ReferenceIdeal
import proofs.«132057_j9809705304183_1_alg».proof.Proof.Gen.Pre_finite_inputs
import proofs.«132057_j9809705304183_1_alg».proof.Proof.RefRun
import proofs.«132057_j9809705304183_1_alg».proof.Proof.RefRead
import proofs.«132057_j9809705304183_1_alg».proof.Proof.KRun
import proofs.«132057_j9809705304183_1_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- At the extended reals both programs end with the read-out head of the same means: the kernel's row sums over the
    masked, padded tiles are the reference's node sums. -/
theorem algebraic : Cert.algebraic_KernelIdeal_ReferenceIdeal := by
  intro m ρ m' ρ' _ hagree
  refine ⟨fun c => Cert.KernelIdeal.Pool.result m c, Cert.KernelIdeal.Pool.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v118_eq, h0, h1, h2, h3, h4, h5, h6, h7, h8, h9]
  exact (Cert.KernelIdeal.Pool.ref_head _ _ _ _ _ _ _ _ _ _).trans
    (congrArg (fun z => Cert.KernelIdeal.Pool.headOf z _ _) (Cert.KernelIdeal.Pool.means_eq m c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
